-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x300 : Shape := ⟨3, ![256, 64, 300]⟩
abbrev S256x256x300 : Shape := ⟨3, ![256, 256, 300]⟩
abbrev S1500x512 : Shape := ⟨2, ![1500, 512]⟩
abbrev S512 : Shape := ⟨1, ![512]⟩
abbrev S_ : Shape := ⟨0, ![]⟩

class Facts : Prop where
  bcast_S_S256x64x300 : S_.BroadcastsInDim S256x64x300 (![] : Fin 0 → Fin S256x64x300.rank)
  reducesTo_S256x64x300_S_d0_1_2 : S256x64x300.ReducesTo [0, 1, 2] S_
  h_S_ : 0 < S_.numel
  bcast_S_S256x256x300 : S_.BroadcastsInDim S256x256x300 (![] : Fin 0 → Fin S256x256x300.rank)
  reducesTo_S256x256x300_S_d0_1_2 : S256x256x300.ReducesTo [0, 1, 2] S_
  bcast_S_S1500x512 : S_.BroadcastsInDim S1500x512 (![] : Fin 0 → Fin S1500x512.rank)
  reducesTo_S1500x512_S_d0_1 : S1500x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S256x64x300 .f32) (main_arg1 : FVec F S256x256x300 .f32) (main_arg2 : FVec F S1500x512 .f32) (main_arg3 : FVec F S512 .f32) : IVec S_ 1 :=
  let main_v0 : FVec F S256x64x300 .f32 := Host.absf main_arg0
  let main_cst : FVec F S_ .f32 := constant S_ .f32 0x7F800000#32
  let main_v1 : FVec F S256x64x300 .f32 := broadcastInDim S256x64x300 ![] bcast_S_S256x64x300 main_cst
  let main_v2 : IVec S256x64x300 1 := cmpf .olt main_v0 main_v1
  let main_c : IVec S_ 1 := constantI S_ 1 1#1
  let main_v3 : IVec S_ 1 := (fun x v => Host.reduce IntOp.andi x v reducesTo_S256x64x300_S_d0_1_2 h_S_) main_v2 main_c
  let main_v4 : FVec F S256x256x300 .f32 := Host.absf main_arg1
  let main_cst_0 : FVec F S_ .f32 := constant S_ .f32 0x7F800000#32
  let main_v5 : FVec F S256x256x300 .f32 := broadcastInDim S256x256x300 ![] bcast_S_S256x256x300 main_cst_0
  let main_v6 : IVec S256x256x300 1 := cmpf .olt main_v4 main_v5
  let main_c_1 : IVec S_ 1 := constantI S_ 1 1#1
  let main_v7 : IVec S_ 1 := (fun x v => Host.reduce IntOp.andi x v reducesTo_S256x256x300_S_d0_1_2 h_S_) main_v6 main_c_1
  let main_v8 : IVec S_ 1 := andi main_v3 main_v7
  let main_v9 : FVec F S1500x512 .f32 := Host.absf main_arg2
  let main_cst_2 : FVec F S_ .f32 := constant S_ .f32 0x7F800000#32
  let main_v10 : FVec F S1500x512 .f32 := broadcastInDim S1500x512 ![] bcast_S_S1500x512 main_cst_2
  let main_v11 : IVec S1500x512 1 := cmpf .olt main_v9 main_v10
  let main_c_3 : IVec S_ 1 := constantI S_ 1 1#1
  let main_v12 : IVec S_ 1 := (fun x v => Host.reduce IntOp.andi x v reducesTo_S1500x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S256x64x300 : Shape := ⟨3, ![256, 64, 300]⟩
abbrev S256x256x300 : Shape := ⟨3, ![256, 256, 300]⟩
abbrev S1500x512 : Shape := ⟨2, ![1500, 512]⟩
abbrev S512 : Shape := ⟨1, ![512]⟩
abbrev S1x512 : Shape := ⟨2, ![1, 512]⟩
abbrev S_ : Shape := ⟨0, ![]⟩
abbrev S256x68x300 : Shape := ⟨3, ![256, 68, 300]⟩
abbrev S256x512x64 : Shape := ⟨3, ![256, 512, 64]⟩
abbrev S16x68x300 : Shape := ⟨3, ![16, 68, 300]⟩
abbrev S16x512x64 : Shape := ⟨3, ![16, 512, 64]⟩
abbrev S16x64x300 : Shape := ⟨3, ![16, 64, 300]⟩
abbrev S16x64x1500 : Shape := ⟨3, ![16, 64, 1500]⟩
abbrev S1024x1500 : Shape := ⟨2, ![1024, 1500]⟩
abbrev S1024x512 : Shape := ⟨2, ![1024, 512]⟩
abbrev S16x64x512 : Shape := ⟨3, ![16, 64, 512]⟩
abbrev S1x1x512 : Shape := ⟨3, ![1, 1, 512]⟩
abbrev S256x260x300 : Shape := ⟨3, ![256, 260, 300]⟩
abbrev S256x512x256 : Shape := ⟨3, ![256, 512, 256]⟩
abbrev S8x260x300 : Shape := ⟨3, ![8, 260, 300]⟩
abbrev S8x512x256 : Shape := ⟨3, ![8, 512, 256]⟩
abbrev S8x256x300 : Shape := ⟨3, ![8, 256, 300]⟩
abbrev S8x256x1500 : Shape := ⟨3, ![8, 256, 1500]⟩
abbrev S2048x1500 : Shape := ⟨2, ![2048, 1500]⟩
abbrev S2048x512 : Shape := ⟨2, ![2048, 512]⟩
abbrev S8x256x512 : Shape := ⟨3, ![8, 256, 512]⟩

abbrev nBuf : Space → Nat
  | .hbm => 16
  | .vmem => 12
  | .smem => 0
  | _ => 0

abbrev bufTy : (tb : Table) → Fin (tcTables nBuf tb) → BufTy
  | .hbm, ⟨0, _⟩ => ⟨S256x64x300, .f32⟩
  | .hbm, ⟨1, _⟩ => ⟨S256x256x300, .f32⟩
  | .hbm, ⟨2, _⟩ => ⟨S1500x512, .f32⟩
  | .hbm, ⟨3, _⟩ => ⟨S512, .f32⟩
  | .hbm, ⟨4, _⟩ => ⟨S1500x512, .bf16⟩
  | .hbm, ⟨5, _⟩ => ⟨S1x512, .f32⟩
  | .hbm, ⟨6, _⟩ => ⟨S_, .i32⟩
  | .hbm, ⟨7, _⟩ => ⟨S_, .f32⟩
  | .hbm, ⟨8, _⟩ => ⟨S256x68x300, .f32⟩
  | .hbm, ⟨9, _⟩ => ⟨S256x68x300, .bf16⟩
  | .hbm, ⟨10, _⟩ => ⟨S256x512x64, .f32⟩
  | .hbm, ⟨11, _⟩ => ⟨S_, .i32⟩
  | .hbm, ⟨12, _⟩ => ⟨S_, .f32⟩
  | .hbm, ⟨13, _⟩ => ⟨S256x260x300, .f32⟩
  | .hbm, ⟨14, _⟩ => ⟨S256x260x300, .bf16⟩
  | .hbm, ⟨15, _⟩ => ⟨S256x512x256, .f32⟩
  | .local _ .vmem, ⟨0, _⟩ => ⟨S16x68x300, .bf16⟩
  | .local _ .vmem, ⟨1, _⟩ => ⟨S16x68x300, .bf16⟩
  | .local _ .vmem, ⟨2, _⟩ => ⟨S1500x512, .bf16⟩
  | .local _ .vmem, ⟨3, _⟩ => ⟨S1x512, .f32⟩
  | .local _ .vmem, ⟨4, _⟩ => ⟨S16x512x64, .f32⟩
  | .local _ .vmem, ⟨5, _⟩ => ⟨S16x512x64, .f32⟩
  | .local _ .vmem, ⟨6, _⟩ => ⟨S8x260x300, .bf16⟩
  | .local _ .vmem, ⟨7, _⟩ => ⟨S8x260x300, .bf16⟩
  | .local _ .vmem, ⟨8, _⟩ => ⟨S1500x512, .bf16⟩
  | .local _ .vmem, ⟨9, _⟩ => ⟨S1x512, .f32⟩
  | .local _ .vmem, ⟨10, _⟩ => ⟨S8x512x256, .f32⟩
  | .local _ .vmem, ⟨11, _⟩ => ⟨S8x512x256, .f32⟩
  | _, _ => ⟨S256x64x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x68x300 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1500x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x260x300 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1500x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8x512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  shapeCasts_S512_S1x512 : S512.ShapeCasts S1x512
  pads_S256x64x300_S256x68x300_000_220_000 : S256x64x300.Pads (![0, 2, 0] : Fin 3 → Nat) ![0, 2, 0] ![0, 0, 0] S256x68x300
  h_S_ : 0 < S_.numel
  inb_S16x68x300_S16x64x300_0_0_0 : ∀ a, (![0, 0, 0] : Fin 3 → Nat) a + S16x64x300.size a ≤ S16x68x300.size a
  h_S16x64x300 : 0 < S16x64x300.numel
  shapeCasts_S16x64x300_S16x64x300 : S16x64x300.ShapeCasts S16x64x300
  inb_S16x68x300_S16x64x300_0_1_0 : ∀ a, (![0, 1, 0] : Fin 3 → Nat) a + S16x64x300.size a ≤ S16x68x300.size a
  inb_S16x68x300_S16x64x300_0_2_0 : ∀ a, (![0, 2, 0] : Fin 3 → Nat) a + S16x64x300.size a ≤ S16x68x300.size a
  inb_S16x68x300_S16x64x300_0_3_0 : ∀ a, (![0, 3, 0] : Fin 3 → Nat) a + S16x64x300.size a ≤ S16x68x300.size a
  inb_S16x68x300_S16x64x300_0_4_0 : ∀ a, (![0, 4, 0] : Fin 3 → Nat) a + S16x64x300.size a ≤ S16x68x300.size a
  concatenates_S16x64x300_S16x64x300_S16x64x300_S16x64x300_S16x64x300_S16x64x1500_d2 : Shape.Concatenates [S16x64x300, S16x64x300, S16x64x300, S16x64x300, S16x64x300] S16x64x1500 2
  shapeCasts_S16x64x1500_S1024x1500 : S16x64x1500.ShapeCasts S1024x1500
  inb_S1500x512_S1500x512_0_0 : ∀ a, (![0, 0] : Fin 2 → Nat) a + S1500x512.size a ≤ S1500x512.size a
  h_S1500x512 : 0 < S1500x512.numel
  shapeCasts_S1500x512_S1500x512 : S1500x512.ShapeCasts S1500x512
  shapeCasts_S1024x512_S16x64x512 : S1024x512.ShapeCasts S16x64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x1x512 : S1x512.ShapeCasts S1x1x512
  broadcasts_S1x1x512_S16x64x512 : S1x1x512.Broadcasts S16x64x512
  transposes_S16x64x512_p0_2_1_S16x512x64 : S16x64x512.Transposes [0, 2, 1] S16x512x64
  inb_S16x512x64_S16x512x64_0_0_0 : ∀ a, (![0, 0, 0] : Fin 3 → Nat) a + S16x512x64.size a ≤ S16x512x64.size a
  h_S16x512x64 : 0 < S16x512x64.numel
  pads_S256x256x300_S256x260x300_000_220_000 : S256x256x300.Pads (![0, 2, 0] : Fin 3 → Nat) ![0, 2, 0] ![0, 0, 0] S256x260x300
  inb_S8x260x300_S8x256x300_0_0_0 : ∀ a, (![0, 0, 0] : Fin 3 → Nat) a + S8x256x300.size a ≤ S8x260x300.size a
  h_S8x256x300 : 0 < S8x256x300.numel
  shapeCasts_S8x256x300_S8x256x300 : S8x256x300.ShapeCasts S8x256x300
  inb_S8x260x300_S8x256x300_0_1_0 : ∀ a, (![0, 1, 0] : Fin 3 → Nat) a + S8x256x300.size a ≤ S8x260x300.size a
  inb_S8x260x300_S8x256x300_0_2_0 : ∀ a, (![0, 2, 0] : Fin 3 → Nat) a + S8x256x300.size a ≤ S8x260x300.size a
  inb_S8x260x300_S8x256x300_0_3_0 : ∀ a, (![0, 3, 0] : Fin 3 → Nat) a + S8x256x300.size a ≤ S8x260x300.size a
  inb_S8x260x300_S8x256x300_0_4_0 : ∀ a, (![0, 4, 0] : Fin 3 → Nat) a + S8x256x300.size a ≤ S8x260x300.size a
  concatenates_S8x256x300_S8x256x300_S8x256x300_S8x256x300_S8x256x300_S8x256x1500_d2 : Shape.Concatenates [S8x256x300, S8x256x300, S8x256x300, S8x256x300, S8x256x300] S8x256x1500 2
  shapeCasts_S8x256x1500_S2048x1500 : S8x256x1500.ShapeCasts S2048x1500
  shapeCasts_S2048x512_S8x256x512 : S2048x512.ShapeCasts S8x256x512
  broadcasts_S1x1x512_S8x256x512 : S1x1x512.Broadcasts S8x256x512
  transposes_S8x256x512_p0_2_1_S8x512x256 : S8x256x512.Transposes [0, 2, 1] S8x512x256
  inb_S8x512x256_S8x512x256_0_0_0 : ∀ a, (![0, 0, 0] : Fin 3 → Nat) a + S8x512x256.size a ≤ S8x512x256.size a
  h_S8x512x256 : 0 < S8x512x256.numel
  dot_S1024x1500_S1500x512_S1024x512_1_0_0_1_n_n_wf : DotDims.WF S1024x1500 S1500x512 S1024x512 [1] [0] [0] [1] [] []
  dot_S2048x1500_S1500x512_S2048x512_1_0_0_1_n_n_wf : DotDims.WF S2048x1500 S1500x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x68x300.size a ≤ S256x68x300.size a
  hwx0_0 : ∀ i : grid0.Coords, EltTy.bits .bf16 = 32 ∨ (Rect.block (s := S256x68x300) S16x68x300.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1500x512.size a ≤ S1500x512.size a
  hwx0_1 : ∀ i : grid0.Coords, EltTy.bits .bf16 = 32 ∨ (Rect.block (s := S1500x512) S1500x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512x64.size a ≤ S256x512x64.size a
  hwx0_3 : ∀ i : grid0.Coords, EltTy.bits .f32 = 32 ∨ (Rect.block (s := S256x512x64) S16x512x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x260x300.size a ≤ S256x260x300.size a
  hwx1_0 : ∀ i : grid1.Coords, EltTy.bits .bf16 = 32 ∨ (Rect.block (s := S256x260x300) S8x260x300.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1500x512.size a ≤ S1500x512.size a
  hwx1_1 : ∀ i : grid1.Coords, EltTy.bits .bf16 = 32 ∨ (Rect.block (s := S1500x512) S1500x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x512x256.size a ≤ S256x512x256.size a
  hwx1_3 : ∀ i : grid1.Coords, EltTy.bits .f32 = 32 ∨ (Rect.block (s := S256x512x256) S8x512x256.size (cc1_transform_3 i) (hinb1_3 i)).WholeWords (EltTy.packing .f32)

variable [Facts₀]

def dot_S1024x1500_S1500x512_S1024x512_1_0_0_1_n_n : DotDims S1024x1500 S1500x512 S1024x512 where
  lhsContracting := [1]
  rhsContracting := [0]
  lhsNonContracting := [0]
  rhsNonContracting := [1]
  lhsBatch := []
  rhsBatch := []
  wf := dot_S1024x1500_S1500x512_S1024x512_1_0_0_1_n_n_wf
def dot_S2048x1500_S1500x512_S2048x512_1_0_0_1_n_n : DotDims S2048x1500 S1500x512 S2048x512 where
  lhsContracting := [1]
  rhsContracting := [0]
  lhsNonContracting := [0]
  rhsNonContracting := [1]
  lhsBatch := []
  rhsBatch := []
  wf := dot_S2048x1500_S1500x512_S2048x512_1_0_0_1_n_n_wf

abbrev win0_0 : Pipeline.Window sig grid0 :=
  Pipeline.Window.ofSpec (Memref.whole main_v3) S16x68x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1500x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S16x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S8x260x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1500x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S8x512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S256x64x300 : Shape := ⟨3, ![256, 64, 300]⟩
abbrev S256x256x300 : Shape := ⟨3, ![256, 256, 300]⟩
abbrev S1500x512 : Shape := ⟨2, ![1500, 512]⟩
abbrev S512 : Shape := ⟨1, ![512]⟩
abbrev S_ : Shape := ⟨0, ![]⟩
abbrev S256x68x300 : Shape := ⟨3, ![256, 68, 300]⟩
abbrev S256x64x1500 : Shape := ⟨3, ![256, 64, 1500]⟩
abbrev S512x256x64 : Shape := ⟨3, ![512, 256, 64]⟩
abbrev S256x512x64 : Shape := ⟨3, ![256, 512, 64]⟩
abbrev S1x512x1 : Shape := ⟨3, ![1, 512, 1]⟩
abbrev S256x260x300 : Shape := ⟨3, ![256, 260, 300]⟩
abbrev S256x256x1500 : Shape := ⟨3, ![256, 256, 1500]⟩
abbrev S512x256x256 : Shape := ⟨3, ![512, 256, 256]⟩
abbrev S256x512x256 : Shape := ⟨3, ![256, 512, 256]⟩

abbrev nBuf : Space → Nat
  | .hbm => 32
  | .vmem => 0
  | .smem => 0
  | _ => 0

abbrev bufTy : (tb : Table) → Fin (tcTables nBuf tb) → BufTy
  | .hbm, ⟨0, _⟩ => ⟨S256x64x300, .f32⟩
  | .hbm, ⟨1, _⟩ => ⟨S256x256x300, .f32⟩
  | .hbm, ⟨2, _⟩ => ⟨S1500x512, .f32⟩
  | .hbm, ⟨3, _⟩ => ⟨S512, .f32⟩
  | .hbm, ⟨4, _⟩ => ⟨S_, .i32⟩
  | .hbm, ⟨5, _⟩ => ⟨S_, .f32⟩
  | .hbm, ⟨6, _⟩ => ⟨S256x68x300, .f32⟩
  | .hbm, ⟨7, _⟩ => ⟨S256x64x300, .f32⟩
  | .hbm, ⟨8, _⟩ => ⟨S256x64x300, .f32⟩
  | .hbm, ⟨9, _⟩ => ⟨S256x64x300, .f32⟩
  | .hbm, ⟨10, _⟩ => ⟨S256x64x300, .f32⟩
  | .hbm, ⟨11, _⟩ => ⟨S256x64x300, .f32⟩
  | .hbm, ⟨12, _⟩ => ⟨S256x64x1500, .f32⟩
  | .hbm, ⟨13, _⟩ => ⟨S512x256x64, .f32⟩
  | .hbm, ⟨14, _⟩ => ⟨S256x512x64, .f32⟩
  | .hbm, ⟨15, _⟩ => ⟨S1x512x1, .f32⟩
  | .hbm, ⟨16, _⟩ => ⟨S256x512x64, .f32⟩
  | .hbm, ⟨17, _⟩ => ⟨S256x512x64, .f32⟩
  | .hbm, ⟨18, _⟩ => ⟨S_, .i32⟩
  | .hbm, ⟨19, _⟩ => ⟨S_, .f32⟩
  | .hbm, ⟨20, _⟩ => ⟨S256x260x300, .f32⟩
  | .hbm, ⟨21, _⟩ => ⟨S256x256x300, .f32⟩
  | .hbm, ⟨22, _⟩ => ⟨S256x256x300, .f32⟩
  | .hbm, ⟨23, _⟩ => ⟨S256x256x300, .f32⟩
  | .hbm, ⟨24, _⟩ => ⟨S256x256x300, .f32⟩
  | .hbm, ⟨25, _⟩ => ⟨S256x256x300, .f32⟩
  | .hbm, ⟨26, _⟩ => ⟨S256x256x1500, .f32⟩
  | .hbm, ⟨27, _⟩ => ⟨S512x256x256, .f32⟩
  | .hbm, ⟨28, _⟩ => ⟨S256x512x256, .f32⟩
  | .hbm, ⟨29, _⟩ => ⟨S1x512x1, .f32⟩
  | .hbm, ⟨30, _⟩ => ⟨S256x512x256, .f32⟩
  | .hbm, ⟨31, _⟩ => ⟨S256x512x256, .f32⟩
  | _, _ => ⟨S256x64x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_call1_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  pads_S256x64x300_S256x68x300_000_220_000 : S256x64x300.Pads (![0, 2, 0] : Fin 3 → Nat) ![0, 2, 0] ![0, 0, 0] S256x68x300
  h_S_ : 0 < S_.numel
  slices_S256x68x300_S256x64x300_0_0_0 : S256x68x300.Slices ![0, 0, 0] S256x64x300
  slices_S256x68x300_S256x64x300_0_1_0 : S256x68x300.Slices ![0, 1, 0] S256x64x300
  slices_S256x68x300_S256x64x300_0_2_0 : S256x68x300.Slices ![0, 2, 0] S256x64x300
  slices_S256x68x300_S256x64x300_0_3_0 : S256x68x300.Slices ![0, 3, 0] S256x64x300
  slices_S256x68x300_S256x64x300_0_4_0 : S256x68x300.Slices ![0, 4, 0] S256x64x300
  concatenates_S256x64x300_S256x64x300_S256x64x300_S256x64x300_S256x64x300_S256x64x1500_d2 : Shape.Concatenates [S256x64x300, S256x64x300, S256x64x300, S256x64x300, S256x64x300] S256x64x1500 2
  transposes_S512x256x64_S256x512x64_1_0_2 : S512x256x64.Transposes [1, 0, 2] S256x512x64
  bcast_S512_S1x512x1_1 : S512.BroadcastsInDim S1x512x1 (![1] : Fin 1 → Fin S1x512x1.rank)
  bcast_S1x512x1_S256x512x64_0_1_2 : S1x512x1.BroadcastsInDim S256x512x64 (![0, 1, 2] : Fin 3 → Fin S256x512x64.rank)
  pads_S256x256x300_S256x260x300_000_220_000 : S256x256x300.Pads (![0, 2, 0] : Fin 3 → Nat) ![0, 2, 0] ![0, 0, 0] S256x260x300
  slices_S256x260x300_S256x256x300_0_0_0 : S256x260x300.Slices ![0, 0, 0] S256x256x300
  slices_S256x260x300_S256x256x300_0_1_0 : S256x260x300.Slices ![0, 1, 0] S256x256x300
  slices_S256x260x300_S256x256x300_0_2_0 : S256x260x300.Slices ![0, 2, 0] S256x256x300
  slices_S256x260x300_S256x256x300_0_3_0 : S256x260x300.Slices ![0, 3, 0] S256x256x300
  slices_S256x260x300_S256x256x300_0_4_0 : S256x260x300.Slices ![0, 4, 0] S256x256x300
  concatenates_S256x256x300_S256x256x300_S256x256x300_S256x256x300_S256x256x300_S256x256x1500_d2 : Shape.Concatenates [S256x256x300, S256x256x300, S256x256x300, S256x256x300, S256x256x300] S256x256x1500 2
  transposes_S512x256x256_S256x512x256_1_0_2 : S512x256x256.Transposes [1, 0, 2] S256x512x256
  bcast_S1x512x1_S256x512x256_0_1_2 : S1x512x1.BroadcastsInDim S256x512x256 (![0, 1, 2] : Fin 3 → Fin S256x512x256.rank)
  dot_S1500x512_S256x64x1500_S512x256x64_0_2_1_01_n_n_wf : DotDims.WF S1500x512 S256x64x1500 S512x256x64 [0] [2] [1] [0, 1] [] []
  dot_S1500x512_S256x256x1500_S512x256x256_0_2_1_01_n_n_wf : DotDims.WF S1500x512 S256x256x1500 S512x256x256 [0] [2] [1] [0, 1] [] []

variable [Facts₀]

def dot_S1500x512_S256x64x1500_S512x256x64_0_2_1_01_n_n : DotDims S1500x512 S256x64x1500 S512x256x64 where
  lhsContracting := [0]
  rhsContracting := [2]
  lhsNonContracting := [1]
  rhsNonContracting := [0, 1]
  lhsBatch := []
  rhsBatch := []
  wf := dot_S1500x512_S256x64x1500_S512x256x64_0_2_1_01_n_n_wf
def dot_S1500x512_S256x256x1500_S512x256x256_0_2_1_01_n_n : DotDims S1500x512 S256x256x1500 S512x256x256 where
  lhsContracting := [0]
  rhsContracting := [2]
  lhsNonContracting := [1]
  rhsNonContracting := [0, 1]
  lhsBatch := []
  rhsBatch := []
  wf := dot_S1500x512_S256x256x1500_S512x256x256_0_2_1_01_n_n_wf

class Facts : Prop extends Facts₀ where

variable [Facts]
-- ==== Proof.BodyQ.lean ====
/-
  Region 0 (the question branch), one grid point: what the kernel body leaves in the output block, read at an index.

  The body loads five row-shifted views of the padded input block `x : [16, 68, 300]` (rows `n .. n + 63`, `n = 0 .. 4`),
  joins them along the last axis into `z : [16, 64, 1500]` — so `z[b, l, k] = x[b, l + k / 300, k % 300]` —, flattens the
  two leading axes, multiplies by the weight block `w : [1500, 512]` into a zero accumulator, adds the bias row and swaps the
  last two axes. At the exact instance the product is a plain sum over the contraction index, so the block entry
  at `(b, f, l)` is `(∑ k, x[b, l + k / 300, k % 300] · w[k, f]) + bias[0, f]`.
-/
import proofs.«178013_j53687091200212_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.BodyQ

open Cert.KernelIdeal Cert.KernelIdeal.Gen Idealize.ShloMosaic Idealize.ShloMosaic.TcCoe Idealize.SL.Sem

/-! ## The indices the stages read at -/

/-- `(b, f, l) ↦ (b, l, f)`: the last two axes swapped back. -/
abbrev swapI (y : S16x512x64.Idx) : S16x64x512.Idx := fun a => match a with
  | ⟨0, _⟩ => ⟨(y 0).val, (y 0).isLt⟩
  | ⟨1, _⟩ => ⟨(y 2).val, (y 2).isLt⟩
  | ⟨2, _⟩ => ⟨(y 1).val, (y 1).isLt⟩

/-- `(b, f, l) ↦ (64 b + l, f)`: the row of the flattened product. -/
abbrev rowI (y : S16x512x64.Idx) : S1024x512.Idx := fun a => match a with
  | ⟨0, _⟩ => ⟨(y 0).val * 64 + (y 2).val, by
      have h0 : (y 0).val < 16 := (y 0).isLt; have h2 : (y 2).val < 64 := (y 2).isLt; show _ < 1024; omega⟩
  | ⟨1, _⟩ => ⟨(y 1).val, (y 1).isLt⟩

/-- `(64 b + l, k)`: the flattened left operand's entry. -/
abbrev lhsI (y : S16x512x64.Idx) (k : Fin 1500) : S1024x1500.Idx := fun a => match a with
  | ⟨0, _⟩ => ⟨(y 0).val * 64 + (y 2).val, by
      have h0 : (y 0).val < 16 := (y 0).isLt; have h2 : (y 2).val < 64 := (y 2).isLt; show _ < 1024; omega⟩
  | ⟨1, _⟩ => ⟨k.val, k.isLt⟩

/-- `(b, l, k)`: the joined vector's entry. -/
abbrev zI (y : S16x512x64.Idx) (k : Fin 1500) : S16x64x1500.Idx := fun a => match a with
  | ⟨0, _⟩ => ⟨(y 0).val, (y 0).isLt⟩
  | ⟨1, _⟩ => ⟨(y 2).val, (y 2).isLt⟩
  | ⟨2, _⟩ => ⟨k.val, k.isLt⟩

/-- `(b, l, k % 300)`: the entry inside the piece `k / 300`. -/
abbrev pcI (y : S16x512x64.Idx) (k : Fin 1500) : S16x64x300.Idx := fun a => match a with
  | ⟨0, _⟩ => ⟨(y 0).val, (y 0).isLt⟩
  | ⟨1, _⟩ => ⟨(y 2).val, (y 2).isLt⟩
  | ⟨2, _⟩ => ⟨k.val % 300, by show _ < 300; omega⟩

/-- `(b, l + k / 300, k % 300)`: the padded block's entry that slot `k` of position `l` holds. -/
abbrev xI (y : S16x512x64.Idx) (k : Fin 1500) : S16x68x300.Idx := fun a => match a with
  | ⟨0, _⟩ => ⟨(y 0).val, (y 0).isLt⟩
  | ⟨1, _⟩ => ⟨(y 2).val + k.val / 300, by
      have h2 : (y 2).val < 64 := (y 2).isLt; have hk := k.isLt; show _ < 68; omega⟩
  | ⟨2, _⟩ => ⟨k.val % 300, by show _ < 300; omega⟩

/-- `(k, f)`: the weight's entry. -/
abbrev wI (y : S16x512x64.Idx) (k : Fin 1500) : S1500x512.Idx := fun a => match a with
  | ⟨0, _⟩ => ⟨k.val, k.isLt⟩
  | ⟨1, _⟩ => ⟨(y 1).val, (y 1).isLt⟩

/-- `(0, f)`: the bias row's entry. -/
abbrev bI (y : S16x512x64.Idx) : S1x512.Idx := fun a => match a with
  | ⟨0, _⟩ => ⟨0, Nat.one_pos⟩
  | ⟨1, _⟩ => ⟨(y 1).val, (y 1).isLt⟩

/-! ## The layout stages, each read at an index -/

theorem swap_apply {α : Type} (v : S16x64x512.Idx → α) (y : S16x512x64.Idx) :
    transpose S16x512x64 [0, 2, 1] v transposes_S16x64x512_p0_2_1_S16x512x64 y = v (swapI y) :=
  transpose_apply [0, 2, 1] v transposes_S16x64x512_p0_2_1_S16x512x64 y (swapI y) (fun b => match b with
    | ⟨0, _⟩ => rfl
    | ⟨1, _⟩ => rfl
    | ⟨2, _⟩ => rfl)

theorem unflatten_apply {α : Type} (v : S1024x512.Idx → α) (y : S16x512x64.Idx) :
    shapeCast S16x64x512 v shapeCasts_S1024x512_S16x64x512 (swapI y) = v (rowI y) :=
  shapeCast_apply v shapeCasts_S1024x512_S16x64x512 (swapI y) (rowI y) (by
    rw [Shape.rowMajor_val_two, Shape.rowMajor_val_three]
    show ((y 0).val * 64 + (y 2).val) * 512 + (y 1).val = ((y 0).val * 64 + (y 2).val) * 512 + (y 1).val
    rfl)

theorem flatten_apply {α : Type} (v : S16x64x1500.Idx → α) (y : S16x512x64.Idx) (k : Fin 1500) :
    shapeCast S1024x1500 v shapeCasts_S16x64x1500_S1024x1500 (lhsI y k) = v (zI y k) :=
  shapeCast_apply v shapeCasts_S16x64x1500_S1024x1500 (lhsI y k) (zI y k) (by
    rw [Shape.rowMajor_val_two, Shape.rowMajor_val_three]
    show ((y 0).val * 64 + (y 2).val) * 1500 + k.val = ((y 0).val * 64 + (y 2).val) * 1500 + k.val
    rfl)

theorem bias_apply {α : Type} (v : S1x512.Idx → α) (y : S16x512x64.Idx) :
    broadcastTo S16x64x512 (shapeCast S1x1x512 v shapeCasts_S1x512_S1x1x512)
      broadcasts_S1x1x512_S16x64x512 (swapI y) = v (bI y) := by
  refine (broadcastTo_apply _ broadcasts_S1x1x512_S16x64x512 (swapI y)
    (fun a => match a with
      | ⟨0, _⟩ => ⟨0, Nat.one_pos⟩
      | ⟨1, _⟩ => ⟨0, Nat.one_pos⟩
      | ⟨2, _⟩ => ⟨(y 1).val, (y 1).isLt⟩) (fun a => match a with
    | ⟨0, _⟩ => by show 0 = if (1 : Nat) = 1 then 0 else _; rw [if_pos rfl]
    | ⟨1, _⟩ => by show 0 = if (1 : Nat) = 1 then 0 else _; rw [if_pos rfl]
    | ⟨2, _⟩ => by show (y 1).val = if (512 : Nat) = 1 then 0 else (y 1).val; rw [if_neg (by decide)])).trans ?_
  exact shapeCast_apply v shapeCasts_S1x512_S1x1x512 _ (bI y) (by
    rw [Shape.rowMajor_val_two, Shape.rowMajor_val_three]
    show 0 * 512 + (y 1).val = (0 * 1 + 0) * 512 + (y 1).val
    rfl)

/-! ## The product: a plain sum over the contraction index -/

theorem lhs_dot_0 (j : S1024x512.Idx) (q : dot_S1024x1500_S1500x512_S1024x512_1_0_0_1_n_n.contr.Idx) :
    (dot_S1024x1500_S1500x512_S1024x512_1_0_0_1_n_n.lhsIdx j q 0).val = (j 0).val := by
  unfold DotDims.lhsIdx
  rw [dif_neg (show ¬(0 : Fin S1024x1500.rank) ∈ dot_S1024x1500_S1500x512_S1024x512_1_0_0_1_n_n.lhsBatch by decide), dif_pos (show (0 : Fin S1024x1500.rank) ∈ dot_S1024x1500_S1500x512_S1024x512_1_0_0_1_n_n.lhsNonContracting by decide)]
  rfl
theorem lhs_dot_1 (j : S1024x512.Idx) (q : dot_S1024x1500_S1500x512_S1024x512_1_0_0_1_n_n.contr.Idx) :
    (dot_S1024x1500_S1500x512_S1024x512_1_0_0_1_n_n.lhsIdx j q 1).val = (q ⟨0, by decide⟩).val :=
  dot_S1024x1500_S1500x512_S1024x512_1_0_0_1_n_n.lhsIdx_val_of_single rfl j q
theorem rhs_dot_0 (j : S1024x512.Idx) (q : dot_S1024x1500_S1500x512_S1024x512_1_0_0_1_n_n.contr.Idx) :
    (dot_S1024x1500_S1500x512_S1024x512_1_0_0_1_n_n.rhsIdx j q 0).val = (q ⟨0, by decide⟩).val :=
  dot_S1024x1500_S1500x512_S1024x512_1_0_0_1_n_n.rhsIdx_val_of_single rfl j q
theorem rhs_dot_1 (j : S1024x512.Idx) (q : dot_S1024x1500_S1500x512_S1024x512_1_0_0_1_n_n.contr.Idx) :
    (dot_S1024x1500_S1500x512_S1024x512_1_0_0_1_n_n.rhsIdx j q 1).val = (j 1).val := by
  unfold DotDims.rhsIdx
  rw [dif_neg (show ¬(1 : Fin S1500x512.rank) ∈ dot_S1024x1500_S1500x512_S1024x512_1_0_0_1_n_n.rhsBatch by decide), dif_pos (show (1 : Fin S1500x512.rank) ∈ dot_S1024x1500_S1500x512_S1024x512_1_0_0_1_n_n.rhsNonContracting by decide)]
  rfl

/-- The product into the zero accumulator, at row `64 b + l` and column `f`: the sum over `k` of the left operand's
    entry `(64 b + l, k)` times the right operand's `(k, f)`. -/
theorem product_apply (A : FVec Ideal S1024x1500 .bf16) (B : FVec Ideal S1500x512 .bf16) (y : S16x512x64.Idx) :
    matmul dot_S1024x1500_S1500x512_S1024x512_1_0_0_1_n_n none A B (constant S1024x512 .f32 0x00000000#32) (rowI y)
      = ∑ k : Fin 1500, A (lhsI y k) * B (wI y k) := by
  simp only [matmul]
  rw [Ideal.matmul_constant_zero_apply, ← Equiv.sum_comp (ValueIdx.contrEquiv1 dot_S1024x1500_S1500x512_S1024x512_1_0_0_1_n_n 1500 rfl rfl).symm]
  refine Finset.sum_congr rfl fun k _ => ?_
  have hk := ValueIdx.contrEquiv1_symm_val dot_S1024x1500_S1500x512_S1024x512_1_0_0_1_n_n 1500 rfl rfl k
  have el : dot_S1024x1500_S1500x512_S1024x512_1_0_0_1_n_n.lhsIdx (rowI y) ((ValueIdx.contrEquiv1 dot_S1024x1500_S1500x512_S1024x512_1_0_0_1_n_n 1500 rfl rfl).symm k) = lhsI y k := funext fun a => Fin.ext (by
    match a with
    | ⟨0, _⟩ => exact lhs_dot_0 _ _
    | ⟨1, _⟩ => exact (lhs_dot_1 _ _).trans hk)
  have er : dot_S1024x1500_S1500x512_S1024x512_1_0_0_1_n_n.rhsIdx (rowI y) ((ValueIdx.contrEquiv1 dot_S1024x1500_S1500x512_S1024x512_1_0_0_1_n_n 1500 rfl rfl).symm k) = wI y k := funext fun a => Fin.ext (by
    match a with
    | ⟨0, _⟩ => exact (rhs_dot_0 _ _).trans hk
    | ⟨1, _⟩ => exact rhs_dot_1 _ _)
  rw [el, er]

/-! ## The joined vector: slot `k` of position `l` is row `l + k / 300` of the padded block at column `k % 300` -/

/-- A load of rows `n .. n + 63` of the padded block, read at `(b, l, e)`: the block at `(b, l + n, e)`. -/
theorem shifted_load_apply {Val : EltTy → Type} {e : EltTy} (x : S16x68x300.Idx → Val e) (n : Nat) (hn : n ≤ 4)
    (inb : ∀ a, (![0, n, 0] : Fin 3 → Nat) a + S16x64x300.size a ≤ S16x68x300.size a)
    (i : S16x64x300.Idx) (j : S16x68x300.Idx)
    (h0 : (j 0).val = (i 0).val) (h1 : (j 1).val = (i 1).val + n) (h2 : (j 2).val = (i 2).val) :
    View.ld x (Rect.unit (s := S16x68x300) ![0, n, 0] S16x64x300.size inb) i = x j := by
  show x ((Rect.unit (s := S16x68x300) ![0, n, 0] S16x64x300.size inb).emb i) = x j
  refine congrArg x (funext fun a => Fin.ext ?_)
  rw [Rect.emb_apply]
  match a with
  | ⟨0, _⟩ => show 0 + 1 * (i 0).val = (j 0).val; omega
  | ⟨1, _⟩ => show n + 1 * (i 1).val = (j 1).val; omega
  | ⟨2, _⟩ => show 0 + 1 * (i 2).val = (j 2).val; omega

/-- The five loads (each under the identity cast the body applies), as a family over the shift. -/
def pieces {Val : EltTy → Type} {e : EltTy} (x : S16x68x300.Idx → Val e) : Fin 5 → (S16x64x300.Idx → Val e) := fun n => match n with
  | ⟨0, _⟩ => shapeCast S16x64x300 (View.ld x r0_0) shapeCasts_S16x64x300_S16x64x300
  | ⟨1, _⟩ => shapeCast S16x64x300 (View.ld x r0_1) shapeCasts_S16x64x300_S16x64x300
  | ⟨2, _⟩ => shapeCast S16x64x300 (View.ld x r0_2) shapeCasts_S16x64x300_S16x64x300
  | ⟨3, _⟩ => shapeCast S16x64x300 (View.ld x r0_3) shapeCasts_S16x64x300_S16x64x300
  | ⟨4, _⟩ => shapeCast S16x64x300 (View.ld x r0_4) shapeCasts_S16x64x300_S16x64x300

theorem pieces_apply {Val : EltTy → Type} {e : EltTy} (x : S16x68x300.Idx → Val e) (y : S16x512x64.Idx) (k : Fin 1500) (n : Fin 5) (hn : k.val / 300 = n.val) :
    pieces x n (pcI y k) = x (xI y k) := by
  match n, hn with
  | ⟨0, _⟩, hn =>
    have hn' : k.val / 300 = 0 := hn
    exact (congrFun (shapeCast_self _ _) _).trans (shifted_load_apply x 0 (by omega) _ _ _ rfl (by show (y 2).val + k.val / 300 = (y 2).val + 0; omega) rfl)
  | ⟨1, _⟩, hn =>
    have hn' : k.val / 300 = 1 := hn
    exact (congrFun (shapeCast_self _ _) _).trans (shifted_load_apply x 1 (by omega) _ _ _ rfl (by show (y 2).val + k.val / 300 = (y 2).val + 1; omega) rfl)
  | ⟨2, _⟩, hn =>
    have hn' : k.val / 300 = 2 := hn
    exact (congrFun (shapeCast_self _ _) _).trans (shifted_load_apply x 2 (by omega) _ _ _ rfl (by show (y 2).val + k.val / 300 = (y 2).val + 2; omega) rfl)
  | ⟨3, _⟩, hn =>
    have hn' : k.val / 300 = 3 := hn
    exact (congrFun (shapeCast_self _ _) _).trans (shifted_load_apply x 3 (by omega) _ _ _ rfl (by show (y 2).val + k.val / 300 = (y 2).val + 3; omega) rfl)
  | ⟨4, _⟩, hn =>
    have hn' : k.val / 300 = 4 := hn
    exact (congrFun (shapeCast_self _ _) _).trans (shifted_load_apply x 4 (by omega) _ _ _ rfl (by show (y 2).val + k.val / 300 = (y 2).val + 4; omega) rfl)

/-- The join of the five loads along the last axis, read at `(b, l, k)`. -/
theorem joined_apply {Val : EltTy → Type} {e : EltTy} (x : S16x68x300.Idx → Val e) (y : S16x512x64.Idx) (k : Fin 1500) :
    concatenate S16x64x1500 2 [⟨S16x64x300, shapeCast S16x64x300 (View.ld x r0_0) shapeCasts_S16x64x300_S16x64x300⟩, ⟨S16x64x300, shapeCast S16x64x300 (View.ld x r0_1) shapeCasts_S16x64x300_S16x64x300⟩, ⟨S16x64x300, shapeCast S16x64x300 (View.ld x r0_2) shapeCasts_S16x64x300_S16x64x300⟩, ⟨S16x64x300, shapeCast S16x64x300 (View.ld x r0_3) shapeCasts_S16x64x300_S16x64x300⟩, ⟨S16x64x300, shapeCast S16x64x300 (View.ld x r0_4) shapeCasts_S16x64x300_S16x64x300⟩]
        concatenates_S16x64x300_S16x64x300_S16x64x300_S16x64x300_S16x64x300_S16x64x1500_d2 (zI y k)
      = x (xI y k) := by
  have hk := k.isLt
  refine (concatenate_ofFn_apply (t := S16x64x1500) (s₁ := S16x64x300) (2 : Fin 3) (pieces x)
    concatenates_S16x64x300_S16x64x300_S16x64x300_S16x64x300_S16x64x300_S16x64x1500_d2 rfl 300 rfl (zI y k)
    ⟨k.val / 300, by omega⟩ rfl (pcI y k) rfl (fun b hb => ?_)).trans (pieces_apply x y k ⟨k.val / 300, by omega⟩ rfl)
  match b, hb with
  | ⟨0, _⟩, _ => rfl
  | ⟨1, _⟩, _ => rfl
  | ⟨2, _⟩, hb => exact absurd rfl hb

/-! ## The block the body leaves, at an index -/

theorem hz3 : (![0, 0, 0] : Fin 3 → Nat) = fun _ => 0 := funext fun a => by fin_cases a <;> rfl
theorem hz2 : (![0, 0] : Fin 2 → Nat) = fun _ => 0 := funext fun a => by fin_cases a <;> rfl

/-- The output block after the body, at `(b, f, l)`: the sum over the 1500 context slots of the padded block's entry
    `(b, l + k / 300, k % 300)` times the weight `(k, f)`, plus the bias `(0, f)`. -/
theorem out0_3_apply (x0 : Vec Ideal S16x68x300 .bf16) (x1 : Vec Ideal S1500x512 .bf16) (x2 : Vec Ideal S1x512 .f32) (y : S16x512x64.Idx) :
    out0_3 x0 x1 x2 y = (∑ k : Fin 1500, x0 (xI y k) * x1 (wI y k)) + x2 (bI y) := by
  unfold out0_3
  rw [View.canon_unit_zero hz3]
  simp only [View.ld_unit_zero (S := S1500x512) hz2, View.ld_unit_zero (S := S1x512) hz2]
  unfold k0_pay1
  simp only [shapeCast_self]
  refine (swap_apply _ y).trans ?_
  refine congrArg₂ (fun a b : EReal => a + b) ?_ (bias_apply x2 y)
  refine (unflatten_apply _ y).trans ((product_apply _ _ y).trans (Finset.sum_congr rfl fun k _ => ?_))
  exact congrArg (fun a : EReal => a * x1 (wI y k)) ((flatten_apply _ y k).trans (joined_apply x0 y k))

end Cert.KernelIdeal.BodyQ

end
-- ==== Proof.RegionQ.lean ====
/-
  Region 0 (the question branch) over its whole grid: the output array after the pipeline, as ONE function of the three
  arrays the region finds, whatever those hold.

  Each grid point works on its own run of consecutive rows of the leading axis: its input block is those rows of the
  padded input, the weight and the bias row are the same whole arrays at every point, and it writes back the same rows
  of the output. So the blocks tile the output, and entry `(b, f, l)` ends holding
  `(∑ k, xp[b, l + k / 300, k % 300] · w[k, f]) + bias[0, f]`.
-/
import proofs.«178013_j53687091200212_1_alg».proof.Proof.BodyQ

set_option maxRecDepth 16384

noncomputable section

namespace Cert.KernelIdeal.RegionQ

open Cert.KernelIdeal Cert.KernelIdeal.Gen Cert.KernelIdeal.BodyQ
open Idealize.ShloMosaic Idealize.ShloMosaic.TcCoe Idealize.SL.Sem
open Idealize.ShloMosaic.Pipeline (Dat Cfg Window)

/-! ## The whole-array function -/

/-- `(b, l + k / 300, k % 300)` in the padded input. -/
abbrev xA (i : S256x512x64.Idx) (k : Fin 1500) : S256x68x300.Idx := fun a => match a with
  | ⟨0, _⟩ => ⟨(i 0).val, (i 0).isLt⟩
  | ⟨1, _⟩ => ⟨(i 2).val + k.val / 300, by
      have h2 : (i 2).val < 64 := (i 2).isLt; have hk := k.isLt; show _ < 68; omega⟩
  | ⟨2, _⟩ => ⟨k.val % 300, by show _ < 300; omega⟩

/-- `(k, f)` in the weight. -/
abbrev wA (i : S256x512x64.Idx) (k : Fin 1500) : S1500x512.Idx := fun a => match a with
  | ⟨0, _⟩ => ⟨k.val, k.isLt⟩
  | ⟨1, _⟩ => ⟨(i 1).val, (i 1).isLt⟩

/-- `(0, f)` in the bias row. -/
abbrev bA (i : S256x512x64.Idx) : S1x512.Idx := fun a => match a with
  | ⟨0, _⟩ => ⟨0, Nat.one_pos⟩
  | ⟨1, _⟩ => ⟨(i 1).val, (i 1).isLt⟩

/-- What the region leaves in its output array, from the padded input, the weight and the bias row. -/
def outQ (xp : Vec Ideal S256x68x300 .bf16) (w : Vec Ideal S1500x512 .bf16) (b2 : Vec Ideal S1x512 .f32) : Vec Ideal S256x512x64 .f32 :=
  fun i => (∑ k : Fin 1500, xp (xA i k) * w (wA i k)) + b2 (bA i)

/-! ## One point's write-back is its block of that function -/

variable (V : (c : Dev nD) → (b : Ref sig .tc) → Buf (Elt Ideal) ((c : Thread nD τ).loc b))

/-- The three arrays the region reads, as it finds them, at their literal types. -/
abbrev xArr (c : Dev nD) : Vec Ideal S256x68x300 .bf16 := V c main_v3
abbrev wArr (c : Dev nD) : Vec Ideal S1500x512 .bf16 := V c main_v0
abbrev bArr (c : Dev nD) : Vec Ideal S1x512 .f32 := V c main_v1

/-- The printed index maps over the grid: the input and the output move together along the leading axis, one block per
    point; every other block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

theorem flushed_eq (c : Dev nD) (t : Fin cfg0.N) :
    (dat0 V c).flushed 3 t = ((cfg0.win 3).blk t).view.read (Elt Ideal) (outQ (xArr V c) (wArr V c) (bArr V c)) := by
  show (cfg0.win 3).cut (grid0.coords t) ((dat0 V c).after 3 t) = _
  rw [after0_3]
  obtain ⟨e00, e01, e02, e10, e11, e20, e21, e30, e31, e32⟩ := idx_facts t
  funext y
  refine (out0_3_apply _ _ _ y).trans ?_
  show (∑ k : Fin 1500, xArr V c (((cfg0.win 0).blk t).view.emb (xI y k)) * wArr V c (((cfg0.win 1).blk t).view.emb (wI y k)))
      + bArr V c (((cfg0.win 2).blk t).view.emb (bI y))
    = (∑ k : Fin 1500, xArr V c (xA (((cfg0.win 3).blk t).view.emb y) k) * wArr V c (wA (((cfg0.win 3).blk t).view.emb y) k))
      + bArr V c (bA (((cfg0.win 3).blk t).view.emb y))
  have hy0 : (y 0).val < 16 := (y 0).isLt
  have hy1 : (y 1).val < 512 := (y 1).isLt
  have hy2 : (y 2).val < 64 := (y 2).isLt
  have hx : ∀ k : Fin 1500, ((cfg0.win 0).blk t).view.emb (xI y k) = xA (((cfg0.win 3).blk t).view.emb y) k := fun k => by
    funext a; apply Fin.ext
    match a with
    | ⟨0, _⟩ => show win0_0.index t (0 : Fin 3) * 16 + 1 * (y 0).val = win0_3.index t (0 : Fin 3) * 16 + 1 * (y 0).val; omega
    | ⟨1, _⟩ => show win0_0.index t (1 : Fin 3) * 68 + 1 * ((y 2).val + k.val / 300) = (win0_3.index t (2 : Fin 3) * 64 + 1 * (y 2).val) + k.val / 300; omega
    | ⟨2, _⟩ => show win0_0.index t (2 : Fin 3) * 300 + 1 * (k.val % 300) = k.val % 300; omega
  have hw : ∀ k : Fin 1500, ((cfg0.win 1).blk t).view.emb (wI y k) = wA (((cfg0.win 3).blk t).view.emb y) k := fun k => by
    funext a; apply Fin.ext
    match a with
    | ⟨0, _⟩ => show win0_1.index t (0 : Fin 2) * 1500 + 1 * k.val = k.val; omega
    | ⟨1, _⟩ => show win0_1.index t (1 : Fin 2) * 512 + 1 * (y 1).val = win0_3.index t (1 : Fin 3) * 512 + 1 * (y 1).val; omega
  have hb : ((cfg0.win 2).blk t).view.emb (bI y) = bA (((cfg0.win 3).blk t).view.emb y) := by
    funext a; apply Fin.ext
    match a with
    | ⟨0, _⟩ => show win0_2.index t (0 : Fin 2) * 1 + 1 * 0 = 0; omega
    | ⟨1, _⟩ => show win0_2.index t (1 : Fin 2) * 512 + 1 * (y 1).val = win0_3.index t (1 : Fin 3) * 512 + 1 * (y 1).val; omega
  rw [hb]
  refine congrArg (fun a : EReal => a + _) (Finset.sum_congr rfl fun k _ => ?_)
  rw [hx k, hw k]

/-! ## The blocks tile the output -/

theorem mem_blk (t : Fin cfg0.N) (i : S256x512x64.Idx) :
    i ∈ ((cfg0.win 3).blk t).view.set ↔ ∀ a : Fin 3, win0_3.index t a * S16x512x64.size a ≤ (i a).val ∧ (i a).val < win0_3.index t a * S16x512x64.size a + S16x512x64.size a := by
  show i ∈ ((View.whole main_v4).slice (win0_3.rect t)).set ↔ _
  rw [View.set_slice_whole, Rect.mem_set_unit]
  exact Iff.rfl

theorem cover (i : S256x512x64.Idx) : ∃ t : Fin cfg0.N, (cfg0.win 3).flush t = true ∧ i ∈ ((cfg0.win 3).blk t).view.set := by
  have hi0 : (i 0).val < 256 := (i 0).isLt
  have hi1 : (i 1).val < 512 := (i 1).isLt
  have hi2 : (i 2).val < 64 := (i 2).isLt
  have hN := N_0
  let t : Fin cfg0.N := ⟨(i 0).val / 16, by show _ < grid0.N; omega⟩
  obtain ⟨-, -, -, -, -, -, -, e30, e31, e32⟩ := idx_facts t
  have e30' : win0_3.index t (0 : Fin 3) = (i 0).val / 16 := e30
  refine ⟨t, flush0_3 t, ?_⟩
  rw [mem_blk]
  intro a
  match a with
  | ⟨0, _⟩ => show win0_3.index t (0 : Fin 3) * 16 ≤ (i 0).val ∧ (i 0).val < win0_3.index t (0 : Fin 3) * 16 + 16; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- The output array after the region. -/
theorem final (c : Dev nD) :
    (dat0 V c).arrAt 3 cfg0.N = outQ (xArr V c) (wArr V c) (bArr V c) :=
  (dat0 V c).arrAt_eq_of_cover 3 (outQ (xArr V c) (wArr V c) (bArr V c)) (fun t _ => flushed_eq V c t) cover

/-- The arrays the region only reads end as it found them. -/
theorem kept (c : Dev nD) (w : Fin cfg0.W) (hw : ∀ t : Fin cfg0.N, (cfg0.win w).flush t = false) :
    (dat0 V c).arrAt w cfg0.N = V c (Pipeline.arrRef spec0 w) :=
  funext fun i => ((dat0 V c).arrAt_apply_of_forall_not_mem w cfg0.N i fun t _ hf => absurd hf (by rw [hw t]; decide)).trans
    (congrFun (A_eq0 V c w) i)

end Cert.KernelIdeal.RegionQ

end
-- ==== Proof.HostSide.lean ====
/-
  The host side of the kernel's program: what the buffers hold at the two regions' entries and at the end.

  Before the first region the host narrows the weight, reshapes the bias to one row, pads the question input with two
  zero rows on each side of its middle axis and narrows it; between the regions it does the same to the answer input.
  The weight and the bias row are only read by the first region, so the second finds them as the first did. Each
  region's output array is not touched afterwards, so the program's two results are what the regions leave.
-/
import proofs.«178013_j53687091200212_1_alg».proof.Proof.RegionQ
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo
open Idealize.ShloMosaic.Pipeline (Dat Cfg Window)

variable {F : FTy → Type} [FloatOps F]

/-! ## What the host computes from the arguments -/

/-- The question input padded with two zero rows before and after its 64 positions, then narrowed. -/
def prepQ (x : (⟨S256x64x300, .f32⟩ : BufTy).Contents (Elt F)) : (⟨S256x68x300, .bf16⟩ : BufTy).Contents (Elt F) :=
  truncf .bf16 (pad S256x68x300 ![0, 2, 0] ![0, 2, 0] ![0, 0, 0] x (sitofp .f32 (constantI S_ 32 0#32)) pads_S256x64x300_S256x68x300_000_220_000 h_S_) bitsLt_bf16_f32

/-- The answer input padded with two zero rows before and after its 256 positions, then narrowed. -/
def prepA (x : (⟨S256x256x300, .f32⟩ : BufTy).Contents (Elt F)) : (⟨S256x260x300, .bf16⟩ : BufTy).Contents (Elt F) :=
  truncf .bf16 (pad S256x260x300 ![0, 2, 0] ![0, 2, 0] ![0, 0, 0] x (sitofp .f32 (constantI S_ 32 0#32)) pads_S256x256x300_S256x260x300_000_220_000 h_S_) bitsLt_bf16_f32

/-- The weight narrowed. -/
def narrowW (w : (⟨S1500x512, .f32⟩ : BufTy).Contents (Elt F)) : (⟨S1500x512, .bf16⟩ : BufTy).Contents (Elt F) :=
  truncf .bf16 w bitsLt_bf16_f32

/-- The bias as one row. -/
def biasRow (b : (⟨S512, .f32⟩ : BufTy).Contents (Elt F)) : (⟨S1x512, .f32⟩ : BufTy).Contents (Elt F) :=
  shapeCast S1x512 b shapeCasts_S512_S1x512

variable (m : (ℓ : Loc nD τ sig) → Buf (Elt F) ℓ) (ρ : Dev nD → PrngReg)

/-! ## The first region's entry -/

theorem V3_v3 (c : Dev nD) : V3 m ρ c main_v3 = prepQ (m ((c : Thread nD τ).loc main_arg0)) := by
  show StableHlo.after hostOps0_2 (StableHlo.after hostOps0_1 (StableHlo.after hostOps0 (W0 m ρ c))) (Proc.devRef .tc main_v3) = _
  after_results
  rfl

theorem V3_v0 (c : Dev nD) : V3 m ρ c main_v0 = narrowW (m ((c : Thread nD τ).loc main_arg2)) := by
  show StableHlo.after hostOps0_2 (StableHlo.after hostOps0_1 (StableHlo.after hostOps0 (W0 m ρ c))) (Proc.devRef .tc main_v0) = _
  after_results
  rfl

theorem V3_v1 (c : Dev nD) : V3 m ρ c main_v1 = biasRow (m ((c : Thread nD τ).loc main_arg3)) := by
  show StableHlo.after hostOps0_2 (StableHlo.after hostOps0_1 (StableHlo.after hostOps0 (W0 m ρ c))) (Proc.devRef .tc main_v1) = _
  after_results
  rfl

/-- The answer input is still as launched when the first region is entered. -/
theorem W3_arg1 (c : Dev nD) : W3 m ρ c (Proc.devRef .tc main_arg1) = m ((c : Thread nD τ).loc main_arg1) := by
  show StableHlo.after hostOps0_2 (StableHlo.after hostOps0_1 (StableHlo.after hostOps0 (W0 m ρ c))) (Proc.devRef .tc main_arg1) = _
  after_results

/-! ## The first region's exit, and the second's entry -/

/-- The first region does not touch the answer input. -/
theorem W4_arg1 (c : Dev nD) : W4 m ρ c (Proc.devRef .tc main_arg1) = m ((c : Thread nD τ).loc main_arg1) :=
  (W4_of_ne m ρ c main_arg1 (by decide)).trans (W3_arg1 m ρ c)

/-- The first region's weight and bias-row arrays are input windows: never written back. -/
theorem noflush0_1 : ∀ t : Fin cfg0.N, (cfg0.win 1).flush t = false :=
  (by decide +kernel : ∀ t : Fin grid0.N, win0_1.flush t = false)
theorem noflush0_2 : ∀ t : Fin cfg0.N, (cfg0.win 2).flush t = false :=
  (by decide +kernel : ∀ t : Fin grid0.N, win0_2.flush t = false)

/-- The three stretches between the regions, from any contents `G`: the padded, narrowed answer input. -/
theorem between_v6 (G : Valuation τ sig (Elt F)) :
    StableHlo.after hostOps1_2 (StableHlo.after hostOps1_1 (StableHlo.after hostOps1 G)) (Proc.devRef .tc main_v6)
      = prepA (G (Proc.devRef .tc main_arg1)) := by
  after_results
  rfl

/-- They write neither the narrowed weight, nor the bias row, nor the first region's output. -/
theorem between_v0 (G : Valuation τ sig (Elt F)) :
    StableHlo.after hostOps1_2 (StableHlo.after hostOps1_1 (StableHlo.after hostOps1 G)) (Proc.devRef .tc main_v0) = G (Proc.devRef .tc main_v0) := by
  after_results
theorem between_v1 (G : Valuation τ sig (Elt F)) :
    StableHlo.after hostOps1_2 (StableHlo.after hostOps1_1 (StableHlo.after hostOps1 G)) (Proc.devRef .tc main_v1) = G (Proc.devRef .tc main_v1) := by
  after_results
theorem between_v4 (G : Valuation τ sig (Elt F)) :
    StableHlo.after hostOps1_2 (StableHlo.after hostOps1_1 (StableHlo.after hostOps1 G)) (Proc.devRef .tc main_v4) = G (Proc.devRef .tc main_v4) := by
  after_results

theorem V7_v6 (c : Dev nD) : V7 m ρ c main_v6 = prepA (m ((c : Thread nD τ).loc main_arg1)) :=
  (between_v6 (W4 m ρ c)).trans (congrArg prepA (W4_arg1 m ρ c))

/-- An array the first region only reads ends as the region found it. -/
theorem kept0 (V : (c : Dev nD) → (b : Ref sig .tc) → Buf (Elt F) ((c : Thread nD τ).loc b)) (c : Dev nD) (w : Fin cfg0.W)
    (hw : ∀ t : Fin cfg0.N, (cfg0.win w).flush t = false) :
    (dat0 V c).arrAt w cfg0.N = V c (Pipeline.arrRef spec0 w) :=
  funext fun i => ((dat0 V c).arrAt_apply_of_forall_not_mem w cfg0.N i fun t _ hf => absurd hf (by rw [hw t]; decide)).trans
    (congrFun (A_eq0 V c w) i)

theorem V7_v0 (c : Dev nD) : V7 m ρ c main_v0 = narrowW (m ((c : Thread nD τ).loc main_arg2)) :=
  (between_v0 (W4 m ρ c)).trans ((W4_arr m ρ c 1).trans ((kept0 (V3 m ρ) c 1 noflush0_1).trans (V3_v0 m ρ c)))

theorem V7_v1 (c : Dev nD) : V7 m ρ c main_v1 = biasRow (m ((c : Thread nD τ).loc main_arg3)) :=
  (between_v1 (W4 m ρ c)).trans ((W4_arr m ρ c 2).trans ((kept0 (V3 m ρ) c 2 noflush0_2).trans (V3_v1 m ρ c)))

/-! ## The results are what the regions leave -/

/-- The first result: the second region does not touch it, nor do the host operations between the regions. -/
theorem W8_v4 (c : Dev nD) : W8 m ρ c (Proc.devRef .tc main_v4) = (dat0 (V3 m ρ) c).arrAt 3 cfg0.N :=
  (W8_of_ne m ρ c main_v4 (by decide)).trans ((between_v4 (W4 m ρ c)).trans (W4_arr m ρ c 3))

/-- The second result is the second region's output array after its pipeline. -/
theorem W8_v7 (c : Dev nD) : W8 m ρ c (Proc.devRef .tc main_v7) = (dat1 (V7 m ρ) c).arrAt 3 cfg1.N :=
  W8_arr m ρ c 3

end Cert.KernelIdeal.HostSide

end
-- ==== Proof.BodyA.lean ====
/-
  Region 1 (the answer branch), one grid point: what the kernel body leaves in the output block, read at an index.

  The body loads five row-shifted views of the padded input block `x : [8, 260, 300]` (rows `n .. n + 255`, `n = 0 .. 4`),
  joins them along the last axis into `z : [8, 256, 1500]` — so `z[b, l, k] = x[b, l + k / 300, k % 300]` —, flattens the
  two leading axes, multiplies by the weight block `w : [1500, 512]` into a zero accumulator, adds the bias row and swaps the
  last two axes. At the exact instance the product is a plain sum over the contraction index, so the block entry
  at `(b, f, l)` is `(∑ k, x[b, l + k / 300, k % 300] · w[k, f]) + bias[0, f]`.
-/
import proofs.«178013_j53687091200212_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.BodyA

open Cert.KernelIdeal Cert.KernelIdeal.Gen Idealize.ShloMosaic Idealize.ShloMosaic.TcCoe Idealize.SL.Sem

/-! ## The indices the stages read at -/

/-- `(b, f, l) ↦ (b, l, f)`: the last two axes swapped back. -/
abbrev swapI (y : S8x512x256.Idx) : S8x256x512.Idx := fun a => match a with
  | ⟨0, _⟩ => ⟨(y 0).val, (y 0).isLt⟩
  | ⟨1, _⟩ => ⟨(y 2).val, (y 2).isLt⟩
  | ⟨2, _⟩ => ⟨(y 1).val, (y 1).isLt⟩

/-- `(b, f, l) ↦ (256 b + l, f)`: the row of the flattened product. -/
abbrev rowI (y : S8x512x256.Idx) : S2048x512.Idx := fun a => match a with
  | ⟨0, _⟩ => ⟨(y 0).val * 256 + (y 2).val, by
      have h0 : (y 0).val < 8 := (y 0).isLt; have h2 : (y 2).val < 256 := (y 2).isLt; show _ < 2048; omega⟩
  | ⟨1, _⟩ => ⟨(y 1).val, (y 1).isLt⟩

/-- `(256 b + l, k)`: the flattened left operand's entry. -/
abbrev lhsI (y : S8x512x256.Idx) (k : Fin 1500) : S2048x1500.Idx := fun a => match a with
  | ⟨0, _⟩ => ⟨(y 0).val * 256 + (y 2).val, by
      have h0 : (y 0).val < 8 := (y 0).isLt; have h2 : (y 2).val < 256 := (y 2).isLt; show _ < 2048; omega⟩
  | ⟨1, _⟩ => ⟨k.val, k.isLt⟩

/-- `(b, l, k)`: the joined vector's entry. -/
abbrev zI (y : S8x512x256.Idx) (k : Fin 1500) : S8x256x1500.Idx := fun a => match a with
  | ⟨0, _⟩ => ⟨(y 0).val, (y 0).isLt⟩
  | ⟨1, _⟩ => ⟨(y 2).val, (y 2).isLt⟩
  | ⟨2, _⟩ => ⟨k.val, k.isLt⟩

/-- `(b, l, k % 300)`: the entry inside the piece `k / 300`. -/
abbrev pcI (y : S8x512x256.Idx) (k : Fin 1500) : S8x256x300.Idx := fun a => match a with
  | ⟨0, _⟩ => ⟨(y 0).val, (y 0).isLt⟩
  | ⟨1, _⟩ => ⟨(y 2).val, (y 2).isLt⟩
  | ⟨2, _⟩ => ⟨k.val % 300, by show _ < 300; omega⟩

/-- `(b, l + k / 300, k % 300)`: the padded block's entry that slot `k` of position `l` holds. -/
abbrev xI (y : S8x512x256.Idx) (k : Fin 1500) : S8x260x300.Idx := fun a => match a with
  | ⟨0, _⟩ => ⟨(y 0).val, (y 0).isLt⟩
  | ⟨1, _⟩ => ⟨(y 2).val + k.val / 300, by
      have h2 : (y 2).val < 256 := (y 2).isLt; have hk := k.isLt; show _ < 260; omega⟩
  | ⟨2, _⟩ => ⟨k.val % 300, by show _ < 300; omega⟩

/-- `(k, f)`: the weight's entry. -/
abbrev wI (y : S8x512x256.Idx) (k : Fin 1500) : S1500x512.Idx := fun a => match a with
  | ⟨0, _⟩ => ⟨k.val, k.isLt⟩
  | ⟨1, _⟩ => ⟨(y 1).val, (y 1).isLt⟩

/-- `(0, f)`: the bias row's entry. -/
abbrev bI (y : S8x512x256.Idx) : S1x512.Idx := fun a => match a with
  | ⟨0, _⟩ => ⟨0, Nat.one_pos⟩
  | ⟨1, _⟩ => ⟨(y 1).val, (y 1).isLt⟩

/-! ## The layout stages, each read at an index -/

theorem swap_apply {α : Type} (v : S8x256x512.Idx → α) (y : S8x512x256.Idx) :
    transpose S8x512x256 [0, 2, 1] v transposes_S8x256x512_p0_2_1_S8x512x256 y = v (swapI y) :=
  transpose_apply [0, 2, 1] v transposes_S8x256x512_p0_2_1_S8x512x256 y (swapI y) (fun b => match b with
    | ⟨0, _⟩ => rfl
    | ⟨1, _⟩ => rfl
    | ⟨2, _⟩ => rfl)

theorem unflatten_apply {α : Type} (v : S2048x512.Idx → α) (y : S8x512x256.Idx) :
    shapeCast S8x256x512 v shapeCasts_S2048x512_S8x256x512 (swapI y) = v (rowI y) :=
  shapeCast_apply v shapeCasts_S2048x512_S8x256x512 (swapI y) (rowI y) (by
    rw [Shape.rowMajor_val_two, Shape.rowMajor_val_three]
    show ((y 0).val * 256 + (y 2).val) * 512 + (y 1).val = ((y 0).val * 256 + (y 2).val) * 512 + (y 1).val
    rfl)

theorem flatten_apply {α : Type} (v : S8x256x1500.Idx → α) (y : S8x512x256.Idx) (k : Fin 1500) :
    shapeCast S2048x1500 v shapeCasts_S8x256x1500_S2048x1500 (lhsI y k) = v (zI y k) :=
  shapeCast_apply v shapeCasts_S8x256x1500_S2048x1500 (lhsI y k) (zI y k) (by
    rw [Shape.rowMajor_val_two, Shape.rowMajor_val_three]
    show ((y 0).val * 256 + (y 2).val) * 1500 + k.val = ((y 0).val * 256 + (y 2).val) * 1500 + k.val
    rfl)

theorem bias_apply {α : Type} (v : S1x512.Idx → α) (y : S8x512x256.Idx) :
    broadcastTo S8x256x512 (shapeCast S1x1x512 v shapeCasts_S1x512_S1x1x512)
      broadcasts_S1x1x512_S8x256x512 (swapI y) = v (bI y) := by
  refine (broadcastTo_apply _ broadcasts_S1x1x512_S8x256x512 (swapI y)
    (fun a => match a with
      | ⟨0, _⟩ => ⟨0, Nat.one_pos⟩
      | ⟨1, _⟩ => ⟨0, Nat.one_pos⟩
      | ⟨2, _⟩ => ⟨(y 1).val, (y 1).isLt⟩) (fun a => match a with
    | ⟨0, _⟩ => by show 0 = if (1 : Nat) = 1 then 0 else _; rw [if_pos rfl]
    | ⟨1, _⟩ => by show 0 = if (1 : Nat) = 1 then 0 else _; rw [if_pos rfl]
    | ⟨2, _⟩ => by show (y 1).val = if (512 : Nat) = 1 then 0 else (y 1).val; rw [if_neg (by decide)])).trans ?_
  exact shapeCast_apply v shapeCasts_S1x512_S1x1x512 _ (bI y) (by
    rw [Shape.rowMajor_val_two, Shape.rowMajor_val_three]
    show 0 * 512 + (y 1).val = (0 * 1 + 0) * 512 + (y 1).val
    rfl)

/-! ## The product: a plain sum over the contraction index -/

theorem lhs_dot_0 (j : S2048x512.Idx) (q : dot_S2048x1500_S1500x512_S2048x512_1_0_0_1_n_n.contr.Idx) :
    (dot_S2048x1500_S1500x512_S2048x512_1_0_0_1_n_n.lhsIdx j q 0).val = (j 0).val := by
  unfold DotDims.lhsIdx
  rw [dif_neg (show ¬(0 : Fin S2048x1500.rank) ∈ dot_S2048x1500_S1500x512_S2048x512_1_0_0_1_n_n.lhsBatch by decide), dif_pos (show (0 : Fin S2048x1500.rank) ∈ dot_S2048x1500_S1500x512_S2048x512_1_0_0_1_n_n.lhsNonContracting by decide)]
  rfl
theorem lhs_dot_1 (j : S2048x512.Idx) (q : dot_S2048x1500_S1500x512_S2048x512_1_0_0_1_n_n.contr.Idx) :
    (dot_S2048x1500_S1500x512_S2048x512_1_0_0_1_n_n.lhsIdx j q 1).val = (q ⟨0, by decide⟩).val :=
  dot_S2048x1500_S1500x512_S2048x512_1_0_0_1_n_n.lhsIdx_val_of_single rfl j q
theorem rhs_dot_0 (j : S2048x512.Idx) (q : dot_S2048x1500_S1500x512_S2048x512_1_0_0_1_n_n.contr.Idx) :
    (dot_S2048x1500_S1500x512_S2048x512_1_0_0_1_n_n.rhsIdx j q 0).val = (q ⟨0, by decide⟩).val :=
  dot_S2048x1500_S1500x512_S2048x512_1_0_0_1_n_n.rhsIdx_val_of_single rfl j q
theorem rhs_dot_1 (j : S2048x512.Idx) (q : dot_S2048x1500_S1500x512_S2048x512_1_0_0_1_n_n.contr.Idx) :
    (dot_S2048x1500_S1500x512_S2048x512_1_0_0_1_n_n.rhsIdx j q 1).val = (j 1).val := by
  unfold DotDims.rhsIdx
  rw [dif_neg (show ¬(1 : Fin S1500x512.rank) ∈ dot_S2048x1500_S1500x512_S2048x512_1_0_0_1_n_n.rhsBatch by decide), dif_pos (show (1 : Fin S1500x512.rank) ∈ dot_S2048x1500_S1500x512_S2048x512_1_0_0_1_n_n.rhsNonContracting by decide)]
  rfl

/-- The product into the zero accumulator, at row `256 b + l` and column `f`: the sum over `k` of the left operand's
    entry `(256 b + l, k)` times the right operand's `(k, f)`. -/
theorem product_apply (A : FVec Ideal S2048x1500 .bf16) (B : FVec Ideal S1500x512 .bf16) (y : S8x512x256.Idx) :
    matmul dot_S2048x1500_S1500x512_S2048x512_1_0_0_1_n_n none A B (constant S2048x512 .f32 0x00000000#32) (rowI y)
      = ∑ k : Fin 1500, A (lhsI y k) * B (wI y k) := by
  simp only [matmul]
  rw [Ideal.matmul_constant_zero_apply, ← Equiv.sum_comp (ValueIdx.contrEquiv1 dot_S2048x1500_S1500x512_S2048x512_1_0_0_1_n_n 1500 rfl rfl).symm]
  refine Finset.sum_congr rfl fun k _ => ?_
  have hk := ValueIdx.contrEquiv1_symm_val dot_S2048x1500_S1500x512_S2048x512_1_0_0_1_n_n 1500 rfl rfl k
  have el : dot_S2048x1500_S1500x512_S2048x512_1_0_0_1_n_n.lhsIdx (rowI y) ((ValueIdx.contrEquiv1 dot_S2048x1500_S1500x512_S2048x512_1_0_0_1_n_n 1500 rfl rfl).symm k) = lhsI y k := funext fun a => Fin.ext (by
    match a with
    | ⟨0, _⟩ => exact lhs_dot_0 _ _
    | ⟨1, _⟩ => exact (lhs_dot_1 _ _).trans hk)
  have er : dot_S2048x1500_S1500x512_S2048x512_1_0_0_1_n_n.rhsIdx (rowI y) ((ValueIdx.contrEquiv1 dot_S2048x1500_S1500x512_S2048x512_1_0_0_1_n_n 1500 rfl rfl).symm k) = wI y k := funext fun a => Fin.ext (by
    match a with
    | ⟨0, _⟩ => exact (rhs_dot_0 _ _).trans hk
    | ⟨1, _⟩ => exact rhs_dot_1 _ _)
  rw [el, er]

/-! ## The joined vector: slot `k` of position `l` is row `l + k / 300` of the padded block at column `k % 300` -/

/-- A load of rows `n .. n + 255` of the padded block, read at `(b, l, e)`: the block at `(b, l + n, e)`. -/
theorem shifted_load_apply {Val : EltTy → Type} {e : EltTy} (x : S8x260x300.Idx → Val e) (n : Nat) (hn : n ≤ 4)
    (inb : ∀ a, (![0, n, 0] : Fin 3 → Nat) a + S8x256x300.size a ≤ S8x260x300.size a)
    (i : S8x256x300.Idx) (j : S8x260x300.Idx)
    (h0 : (j 0).val = (i 0).val) (h1 : (j 1).val = (i 1).val + n) (h2 : (j 2).val = (i 2).val) :
    View.ld x (Rect.unit (s := S8x260x300) ![0, n, 0] S8x256x300.size inb) i = x j := by
  show x ((Rect.unit (s := S8x260x300) ![0, n, 0] S8x256x300.size inb).emb i) = x j
  refine congrArg x (funext fun a => Fin.ext ?_)
  rw [Rect.emb_apply]
  match a with
  | ⟨0, _⟩ => show 0 + 1 * (i 0).val = (j 0).val; omega
  | ⟨1, _⟩ => show n + 1 * (i 1).val = (j 1).val; omega
  | ⟨2, _⟩ => show 0 + 1 * (i 2).val = (j 2).val; omega

/-- The five loads (each under the identity cast the body applies), as a family over the shift. -/
def pieces {Val : EltTy → Type} {e : EltTy} (x : S8x260x300.Idx → Val e) : Fin 5 → (S8x256x300.Idx → Val e) := fun n => match n with
  | ⟨0, _⟩ => shapeCast S8x256x300 (View.ld x r1_0) shapeCasts_S8x256x300_S8x256x300
  | ⟨1, _⟩ => shapeCast S8x256x300 (View.ld x r1_1) shapeCasts_S8x256x300_S8x256x300
  | ⟨2, _⟩ => shapeCast S8x256x300 (View.ld x r1_2) shapeCasts_S8x256x300_S8x256x300
  | ⟨3, _⟩ => shapeCast S8x256x300 (View.ld x r1_3) shapeCasts_S8x256x300_S8x256x300
  | ⟨4, _⟩ => shapeCast S8x256x300 (View.ld x r1_4) shapeCasts_S8x256x300_S8x256x300

theorem pieces_apply {Val : EltTy → Type} {e : EltTy} (x : S8x260x300.Idx → Val e) (y : S8x512x256.Idx) (k : Fin 1500) (n : Fin 5) (hn : k.val / 300 = n.val) :
    pieces x n (pcI y k) = x (xI y k) := by
  match n, hn with
  | ⟨0, _⟩, hn =>
    have hn' : k.val / 300 = 0 := hn
    exact (congrFun (shapeCast_self _ _) _).trans (shifted_load_apply x 0 (by omega) _ _ _ rfl (by show (y 2).val + k.val / 300 = (y 2).val + 0; omega) rfl)
  | ⟨1, _⟩, hn =>
    have hn' : k.val / 300 = 1 := hn
    exact (congrFun (shapeCast_self _ _) _).trans (shifted_load_apply x 1 (by omega) _ _ _ rfl (by show (y 2).val + k.val / 300 = (y 2).val + 1; omega) rfl)
  | ⟨2, _⟩, hn =>
    have hn' : k.val / 300 = 2 := hn
    exact (congrFun (shapeCast_self _ _) _).trans (shifted_load_apply x 2 (by omega) _ _ _ rfl (by show (y 2).val + k.val / 300 = (y 2).val + 2; omega) rfl)
  | ⟨3, _⟩, hn =>
    have hn' : k.val / 300 = 3 := hn
    exact (congrFun (shapeCast_self _ _) _).trans (shifted_load_apply x 3 (by omega) _ _ _ rfl (by show (y 2).val + k.val / 300 = (y 2).val + 3; omega) rfl)
  | ⟨4, _⟩, hn =>
    have hn' : k.val / 300 = 4 := hn
    exact (congrFun (shapeCast_self _ _) _).trans (shifted_load_apply x 4 (by omega) _ _ _ rfl (by show (y 2).val + k.val / 300 = (y 2).val + 4; omega) rfl)

/-- The join of the five loads along the last axis, read at `(b, l, k)`. -/
theorem joined_apply {Val : EltTy → Type} {e : EltTy} (x : S8x260x300.Idx → Val e) (y : S8x512x256.Idx) (k : Fin 1500) :
    concatenate S8x256x1500 2 [⟨S8x256x300, shapeCast S8x256x300 (View.ld x r1_0) shapeCasts_S8x256x300_S8x256x300⟩, ⟨S8x256x300, shapeCast S8x256x300 (View.ld x r1_1) shapeCasts_S8x256x300_S8x256x300⟩, ⟨S8x256x300, shapeCast S8x256x300 (View.ld x r1_2) shapeCasts_S8x256x300_S8x256x300⟩, ⟨S8x256x300, shapeCast S8x256x300 (View.ld x r1_3) shapeCasts_S8x256x300_S8x256x300⟩, ⟨S8x256x300, shapeCast S8x256x300 (View.ld x r1_4) shapeCasts_S8x256x300_S8x256x300⟩]
        concatenates_S8x256x300_S8x256x300_S8x256x300_S8x256x300_S8x256x300_S8x256x1500_d2 (zI y k)
      = x (xI y k) := by
  have hk := k.isLt
  refine (concatenate_ofFn_apply (t := S8x256x1500) (s₁ := S8x256x300) (2 : Fin 3) (pieces x)
    concatenates_S8x256x300_S8x256x300_S8x256x300_S8x256x300_S8x256x300_S8x256x1500_d2 rfl 300 rfl (zI y k)
    ⟨k.val / 300, by omega⟩ rfl (pcI y k) rfl (fun b hb => ?_)).trans (pieces_apply x y k ⟨k.val / 300, by omega⟩ rfl)
  match b, hb with
  | ⟨0, _⟩, _ => rfl
  | ⟨1, _⟩, _ => rfl
  | ⟨2, _⟩, hb => exact absurd rfl hb

/-! ## The block the body leaves, at an index -/

theorem hz3 : (![0, 0, 0] : Fin 3 → Nat) = fun _ => 0 := funext fun a => by fin_cases a <;> rfl
theorem hz2 : (![0, 0] : Fin 2 → Nat) = fun _ => 0 := funext fun a => by fin_cases a <;> rfl

/-- The output block after the body, at `(b, f, l)`: the sum over the 1500 context slots of the padded block's entry
    `(b, l + k / 300, k % 300)` times the weight `(k, f)`, plus the bias `(0, f)`. -/
theorem out1_3_apply (x0 : Vec Ideal S8x260x300 .bf16) (x1 : Vec Ideal S1500x512 .bf16) (x2 : Vec Ideal S1x512 .f32) (y : S8x512x256.Idx) :
    out1_3 x0 x1 x2 y = (∑ k : Fin 1500, x0 (xI y k) * x1 (wI y k)) + x2 (bI y) := by
  unfold out1_3
  rw [View.canon_unit_zero hz3]
  simp only [View.ld_unit_zero (S := S1500x512) hz2, View.ld_unit_zero (S := S1x512) hz2]
  unfold k1_pay1
  simp only [shapeCast_self]
  refine (swap_apply _ y).trans ?_
  refine congrArg₂ (fun a b : EReal => a + b) ?_ (bias_apply x2 y)
  refine (unflatten_apply _ y).trans ((product_apply _ _ y).trans (Finset.sum_congr rfl fun k _ => ?_))
  exact congrArg (fun a : EReal => a * x1 (wI y k)) ((flatten_apply _ y k).trans (joined_apply x0 y k))

end Cert.KernelIdeal.BodyA

end
-- ==== Proof.RegionA.lean ====
/-
  Region 1 (the answer branch) over its whole grid: the output array after the pipeline, as ONE function of the three
  arrays the region finds, whatever those hold.

  Each grid point works on its own run of consecutive rows of the leading axis: its input block is those rows of the
  padded input, the weight and the bias row are the same whole arrays at every point, and it writes back the same rows
  of the output. So the blocks tile the output, and entry `(b, f, l)` ends holding
  `(∑ k, xp[b, l + k / 300, k % 300] · w[k, f]) + bias[0, f]`.
-/
import proofs.«178013_j53687091200212_1_alg».proof.Proof.BodyA

set_option maxRecDepth 16384

noncomputable section

namespace Cert.KernelIdeal.RegionA

open Cert.KernelIdeal Cert.KernelIdeal.Gen Cert.KernelIdeal.BodyA
open Idealize.ShloMosaic Idealize.ShloMosaic.TcCoe Idealize.SL.Sem
open Idealize.ShloMosaic.Pipeline (Dat Cfg Window)

/-! ## The whole-array function -/

/-- `(b, l + k / 300, k % 300)` in the padded input. -/
abbrev xA (i : S256x512x256.Idx) (k : Fin 1500) : S256x260x300.Idx := fun a => match a with
  | ⟨0, _⟩ => ⟨(i 0).val, (i 0).isLt⟩
  | ⟨1, _⟩ => ⟨(i 2).val + k.val / 300, by
      have h2 : (i 2).val < 256 := (i 2).isLt; have hk := k.isLt; show _ < 260; omega⟩
  | ⟨2, _⟩ => ⟨k.val % 300, by show _ < 300; omega⟩

/-- `(k, f)` in the weight. -/
abbrev wA (i : S256x512x256.Idx) (k : Fin 1500) : S1500x512.Idx := fun a => match a with
  | ⟨0, _⟩ => ⟨k.val, k.isLt⟩
  | ⟨1, _⟩ => ⟨(i 1).val, (i 1).isLt⟩

/-- `(0, f)` in the bias row. -/
abbrev bA (i : S256x512x256.Idx) : S1x512.Idx := fun a => match a with
  | ⟨0, _⟩ => ⟨0, Nat.one_pos⟩
  | ⟨1, _⟩ => ⟨(i 1).val, (i 1).isLt⟩

/-- What the region leaves in its output array, from the padded input, the weight and the bias row. -/
def outA (xp : Vec Ideal S256x260x300 .bf16) (w : Vec Ideal S1500x512 .bf16) (b2 : Vec Ideal S1x512 .f32) : Vec Ideal S256x512x256 .f32 :=
  fun i => (∑ k : Fin 1500, xp (xA i k) * w (wA i k)) + b2 (bA i)

/-! ## One point's write-back is its block of that function -/

variable (V : (c : Dev nD) → (b : Ref sig .tc) → Buf (Elt Ideal) ((c : Thread nD τ).loc b))

/-- The three arrays the region reads, as it finds them, at their literal types. -/
abbrev xArr (c : Dev nD) : Vec Ideal S256x260x300 .bf16 := V c main_v6
abbrev wArr (c : Dev nD) : Vec Ideal S1500x512 .bf16 := V c main_v0
abbrev bArr (c : Dev nD) : Vec Ideal S1x512 .f32 := V c main_v1

/-- The printed index maps over the grid: the input and the output move together along the leading axis, one block per
    point; every other block index is zero. -/
theorem idx_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

theorem flushed_eq (c : Dev nD) (t : Fin cfg1.N) :
    (dat1 V c).flushed 3 t = ((cfg1.win 3).blk t).view.read (Elt Ideal) (outA (xArr V c) (wArr V c) (bArr V c)) := by
  show (cfg1.win 3).cut (grid1.coords t) ((dat1 V c).after 3 t) = _
  rw [after1_3]
  obtain ⟨e00, e01, e02, e10, e11, e20, e21, e30, e31, e32⟩ := idx_facts t
  funext y
  refine (out1_3_apply _ _ _ y).trans ?_
  show (∑ k : Fin 1500, xArr V c (((cfg1.win 0).blk t).view.emb (xI y k)) * wArr V c (((cfg1.win 1).blk t).view.emb (wI y k)))
      + bArr V c (((cfg1.win 2).blk t).view.emb (bI y))
    = (∑ k : Fin 1500, xArr V c (xA (((cfg1.win 3).blk t).view.emb y) k) * wArr V c (wA (((cfg1.win 3).blk t).view.emb y) k))
      + bArr V c (bA (((cfg1.win 3).blk t).view.emb y))
  have hy0 : (y 0).val < 8 := (y 0).isLt
  have hy1 : (y 1).val < 512 := (y 1).isLt
  have hy2 : (y 2).val < 256 := (y 2).isLt
  have hx : ∀ k : Fin 1500, ((cfg1.win 0).blk t).view.emb (xI y k) = xA (((cfg1.win 3).blk t).view.emb y) k := fun k => by
    funext a; apply Fin.ext
    match a with
    | ⟨0, _⟩ => show win1_0.index t (0 : Fin 3) * 8 + 1 * (y 0).val = win1_3.index t (0 : Fin 3) * 8 + 1 * (y 0).val; omega
    | ⟨1, _⟩ => show win1_0.index t (1 : Fin 3) * 260 + 1 * ((y 2).val + k.val / 300) = (win1_3.index t (2 : Fin 3) * 256 + 1 * (y 2).val) + k.val / 300; omega
    | ⟨2, _⟩ => show win1_0.index t (2 : Fin 3) * 300 + 1 * (k.val % 300) = k.val % 300; omega
  have hw : ∀ k : Fin 1500, ((cfg1.win 1).blk t).view.emb (wI y k) = wA (((cfg1.win 3).blk t).view.emb y) k := fun k => by
    funext a; apply Fin.ext
    match a with
    | ⟨0, _⟩ => show win1_1.index t (0 : Fin 2) * 1500 + 1 * k.val = k.val; omega
    | ⟨1, _⟩ => show win1_1.index t (1 : Fin 2) * 512 + 1 * (y 1).val = win1_3.index t (1 : Fin 3) * 512 + 1 * (y 1).val; omega
  have hb : ((cfg1.win 2).blk t).view.emb (bI y) = bA (((cfg1.win 3).blk t).view.emb y) := by
    funext a; apply Fin.ext
    match a with
    | ⟨0, _⟩ => show win1_2.index t (0 : Fin 2) * 1 + 1 * 0 = 0; omega
    | ⟨1, _⟩ => show win1_2.index t (1 : Fin 2) * 512 + 1 * (y 1).val = win1_3.index t (1 : Fin 3) * 512 + 1 * (y 1).val; omega
  rw [hb]
  refine congrArg (fun a : EReal => a + _) (Finset.sum_congr rfl fun k _ => ?_)
  rw [hx k, hw k]

/-! ## The blocks tile the output -/

theorem mem_blk (t : Fin cfg1.N) (i : S256x512x256.Idx) :
    i ∈ ((cfg1.win 3).blk t).view.set ↔ ∀ a : Fin 3, win1_3.index t a * S8x512x256.size a ≤ (i a).val ∧ (i a).val < win1_3.index t a * S8x512x256.size a + S8x512x256.size a := by
  show i ∈ ((View.whole main_v7).slice (win1_3.rect t)).set ↔ _
  rw [View.set_slice_whole, Rect.mem_set_unit]
  exact Iff.rfl

theorem cover (i : S256x512x256.Idx) : ∃ t : Fin cfg1.N, (cfg1.win 3).flush t = true ∧ i ∈ ((cfg1.win 3).blk t).view.set := by
  have hi0 : (i 0).val < 256 := (i 0).isLt
  have hi1 : (i 1).val < 512 := (i 1).isLt
  have hi2 : (i 2).val < 256 := (i 2).isLt
  have hN := N_1
  let t : Fin cfg1.N := ⟨(i 0).val / 8, by show _ < grid1.N; omega⟩
  obtain ⟨-, -, -, -, -, -, -, e30, e31, e32⟩ := idx_facts t
  have e30' : win1_3.index t (0 : Fin 3) = (i 0).val / 8 := e30
  refine ⟨t, flush1_3 t, ?_⟩
  rw [mem_blk]
  intro a
  match a with
  | ⟨0, _⟩ => show win1_3.index t (0 : Fin 3) * 8 ≤ (i 0).val ∧ (i 0).val < win1_3.index t (0 : Fin 3) * 8 + 8; omega
  | ⟨1, _⟩ => show win1_3.index t (1 : Fin 3) * 512 ≤ (i 1).val ∧ (i 1).val < win1_3.index t (1 : Fin 3) * 512 + 512; omega
  | ⟨2, _⟩ => show win1_3.index t (2 : Fin 3) * 256 ≤ (i 2).val ∧ (i 2).val < win1_3.index t (2 : Fin 3) * 256 + 256; omega

/-- The output array after the region. -/
theorem final (c : Dev nD) :
    (dat1 V c).arrAt 3 cfg1.N = outA (xArr V c) (wArr V c) (bArr V c) :=
  (dat1 V c).arrAt_eq_of_cover 3 (outA (xArr V c) (wArr V c) (bArr V c)) (fun t _ => flushed_eq V c t) cover

/-- The arrays the region only reads end as it found them. -/
theorem kept (c : Dev nD) (w : Fin cfg1.W) (hw : ∀ t : Fin cfg1.N, (cfg1.win w).flush t = false) :
    (dat1 V c).arrAt w cfg1.N = V c (Pipeline.arrRef spec1 w) :=
  funext fun i => ((dat1 V c).arrAt_apply_of_forall_not_mem w cfg1.N i fun t _ hf => absurd hf (by rw [hw t]; decide)).trans
    (congrFun (A_eq1 V c w) i)

end Cert.KernelIdeal.RegionA

end
-- ==== Proof.KernelValue.lean ====
/-
  The kernel's program at the exact instance: both results as functions of the launch arguments.

  The first result is what region 0 leaves in its output array, at the entry contents the host prepared — the padded and
  narrowed question input, the narrowed weight, the bias as a row —; the second is what region 1 leaves, at the padded and
  narrowed answer input and the same weight and bias row.
-/
import proofs.«178013_j53687091200212_1_alg».proof.Proof.RunNamed
import proofs.«178013_j53687091200212_1_alg».proof.Proof.HostSide
import proofs.«178013_j53687091200212_1_alg».proof.Proof.RegionA

set_option maxRecDepth 16384

noncomputable section

namespace Cert.KernelIdeal.KernelValue

open Cert.KernelIdeal Cert.KernelIdeal.Gen Cert.KernelIdeal.HostSide
open Idealize.ShloMosaic Idealize.ShloMosaic.TcCoe Idealize.SL.Sem

variable (m : (ℓ : Loc nD τ sig) → Buf (Elt Ideal) ℓ) (ρ : Dev nD → PrngReg)

/-- The first result, from the arguments. -/
def resultQ (c : Dev nD) : Vec Ideal S256x512x64 .f32 :=
  RegionQ.outQ (prepQ (m ((c : Thread nD τ).loc main_arg0))) (narrowW (m ((c : Thread nD τ).loc main_arg2)))
    (biasRow (m ((c : Thread nD τ).loc main_arg3)))

/-- The second result, from the arguments. -/
def resultA (c : Dev nD) : Vec Ideal S256x512x256 .f32 :=
  RegionA.outA (prepA (m ((c : Thread nD τ).loc main_arg1))) (narrowW (m ((c : Thread nD τ).loc main_arg2)))
    (biasRow (m ((c : Thread nD τ).loc main_arg3)))

theorem valueQ (c : Dev nD) : W8 m ρ c (Proc.devRef .tc main_v4) = resultQ m c := by
  refine (W8_v4 m ρ c).trans ((RegionQ.final (V3 m ρ) c).trans ?_)
  show RegionQ.outQ (V3 m ρ c main_v3) (V3 m ρ c main_v0) (V3 m ρ c main_v1) = _
  rw [V3_v3, V3_v0, V3_v1]
  rfl

theorem valueA (c : Dev nD) : W8 m ρ c (Proc.devRef .tc main_v7) = resultA m c := by
  refine (W8_v7 m ρ c).trans ((RegionA.final (V7 m ρ) c).trans ?_)
  show RegionA.outA (V7 m ρ c main_v6) (V7 m ρ c main_v0) (V7 m ρ c main_v1) = _
  rw [V7_v6, V7_v0, V7_v1]
  rfl

/-- Every weakly fair execution of the kernel's program terminates, nothing faulting, with the two results at those
    functions of the arguments and the arguments unchanged. -/
theorem run : θ_run defs (onTc (τ := τ) (main (F := Ideal))) ⟨m, fun _ => 0, ρ⟩ (fun r => ∀ c : Dev nD,
      r.2.mem ((c.tc : Thread nD τ).loc main_v4) = resultQ m c
      ∧ r.2.mem ((c.tc : Thread nD τ).loc main_v7) = resultA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (valueQ m ρ c), (h c).2.1.trans (valueA m ρ c), (h c).2.2⟩)
    (Named.run_named m ρ)

end Cert.KernelIdeal.KernelValue

end
-- ==== Proof.RefQ.lean ====
/-
  The reference's question branch, read at an index.

  The reference pads the input `x : [256, 64, 300]` with two zero rows on each side of its middle axis, takes the five
  slices of rows `n .. n + 63` (`n = 0 .. 4`), joins them along the last axis — `z[b, l, k] = xp[b, l + k / 300, k % 300]` —,
  contracts the weight's rows against that axis, moves the feature axis to the middle and adds the bias along it. At the
  exact instance the contraction is a plain sum, so entry `(b, f, l)` of the result is
  `(∑ k, w[k, f] · xp[b, l + k / 300, k % 300]) + bias[f]`, `xp` the padded input.
-/
import proofs.«178013_j53687091200212_1_alg».proof.Proof.Gen.ReferenceIdeal.Read

set_option maxRecDepth 16384

noncomputable section

namespace Cert.ReferenceIdeal.RefQ

open Cert.ReferenceIdeal Cert.ReferenceIdeal.Gen Cert.ReferenceIdeal.Read
open Idealize.ShloMosaic Idealize.ShloMosaic.TcCoe Idealize.SL.Sem Idealize.ShloMosaic.StableHlo

/-! ## The indices -/

/-- `(b, l + k / 300, k % 300)` in the padded input. -/
abbrev xA (i : S256x512x64.Idx) (k : Fin 1500) : S256x68x300.Idx := fun a => match a with
  | ⟨0, _⟩ => ⟨(i 0).val, (i 0).isLt⟩
  | ⟨1, _⟩ => ⟨(i 2).val + k.val / 300, by
      have h2 : (i 2).val < 64 := (i 2).isLt; have hk := k.isLt; show _ < 68; omega⟩
  | ⟨2, _⟩ => ⟨k.val % 300, by show _ < 300; omega⟩

/-- `(k, f)` in the weight. -/
abbrev wA (i : S256x512x64.Idx) (k : Fin 1500) : S1500x512.Idx := fun a => match a with
  | ⟨0, _⟩ => ⟨k.val, k.isLt⟩
  | ⟨1, _⟩ => ⟨(i 1).val, (i 1).isLt⟩

/-- `f` in the bias. -/
abbrev bA (i : S256x512x64.Idx) : S512.Idx := fun a => match a with
  | ⟨0, _⟩ => ⟨(i 1).val, (i 1).isLt⟩

/-- `(b, l, k % 300)`: the entry inside the slice `k / 300`. -/
abbrev pcA (i : S256x512x64.Idx) (k : Fin 1500) : S256x64x300.Idx := fun a => match a with
  | ⟨0, _⟩ => ⟨(i 0).val, (i 0).isLt⟩
  | ⟨1, _⟩ => ⟨(i 2).val, (i 2).isLt⟩
  | ⟨2, _⟩ => ⟨k.val % 300, by show _ < 300; omega⟩

/-! ## The joined vector: slot `k` of position `l` is row `l + k / 300` of the padded input at column `k % 300` -/

/-- The five slices, as a family over the shift. -/
def slices (x : (⟨S256x64x300, .f32⟩ : BufTy).Contents (Elt Ideal)) : Fin 5 → (S256x64x300.Idx → Elt Ideal .f32) := fun n => match n with
  | ⟨0, _⟩ => val_main_v1 (F := Ideal) x
  | ⟨1, _⟩ => val_main_v2 (F := Ideal) x
  | ⟨2, _⟩ => val_main_v3 (F := Ideal) x
  | ⟨3, _⟩ => val_main_v4 (F := Ideal) x
  | ⟨4, _⟩ => val_main_v5 (F := Ideal) x

theorem slices_apply (x : (⟨S256x64x300, .f32⟩ : BufTy).Contents (Elt Ideal)) (i : S256x512x64.Idx) (k : Fin 1500) (n : Fin 5)
    (hn : k.val / 300 = n.val) : slices x n (pcA i k) = val_main_v0 (F := Ideal) x (xA i k) := by
  match n, hn with
  | ⟨0, _⟩, hn =>
    have hn' : k.val / 300 = 0 := hn
    refine (val_main_v1_apply x _).trans (congrArg _ (funext fun a => Fin.ext ?_))
    match a with
    | ⟨0, _⟩ => rfl
    | ⟨1, _⟩ => show (i 2).val = (i 2).val + k.val / 300; omega
    | ⟨2, _⟩ => rfl
  | ⟨1, _⟩, hn =>
    have hn' : k.val / 300 = 1 := hn
    refine (val_main_v2_apply x _).trans (congrArg _ (funext fun a => Fin.ext ?_))
    match a with
    | ⟨0, _⟩ => rfl
    | ⟨1, _⟩ => show 1 + (i 2).val = (i 2).val + k.val / 300; omega
    | ⟨2, _⟩ => rfl
  | ⟨2, _⟩, hn =>
    have hn' : k.val / 300 = 2 := hn
    refine (val_main_v3_apply x _).trans (congrArg _ (funext fun a => Fin.ext ?_))
    match a with
    | ⟨0, _⟩ => rfl
    | ⟨1, _⟩ => show 2 + (i 2).val = (i 2).val + k.val / 300; omega
    | ⟨2, _⟩ => rfl
  | ⟨3, _⟩, hn =>
    have hn' : k.val / 300 = 3 := hn
    refine (val_main_v4_apply x _).trans (congrArg _ (funext fun a => Fin.ext ?_))
    match a with
    | ⟨0, _⟩ => rfl
    | ⟨1, _⟩ => show 3 + (i 2).val = (i 2).val + k.val / 300; omega
    | ⟨2, _⟩ => rfl
  | ⟨4, _⟩, hn =>
    have hn' : k.val / 300 = 4 := hn
    refine (val_main_v5_apply x _).trans (congrArg _ (funext fun a => Fin.ext ?_))
    match a with
    | ⟨0, _⟩ => rfl
    | ⟨1, _⟩ => show 4 + (i 2).val = (i 2).val + k.val / 300; omega
    | ⟨2, _⟩ => rfl

/-- The join of the five slices along the last axis, read at `(b, l, k)`. -/
theorem joined_apply (x : (⟨S256x64x300, .f32⟩ : BufTy).Contents (Elt Ideal)) (i : S256x512x64.Idx) (k : Fin 1500) :
    val_main_v6 (F := Ideal) x (ridx_main_v7 (idx_main_v8 i) k) = val_main_v0 (F := Ideal) x (xA i k) := by
  have hk := k.isLt
  unfold val_main_v6
  refine (concatenate_ofFn_apply (t := S256x64x1500) (s₁ := S256x64x300) (2 : Fin 3) (slices x)
    concatenates_S256x64x300_S256x64x300_S256x64x300_S256x64x300_S256x64x300_S256x64x1500_d2 rfl 300 rfl (ridx_main_v7 (idx_main_v8 i) k)
    ⟨k.val / 300, by omega⟩ rfl (pcA i k) rfl (fun b hb => ?_)).trans (slices_apply x i k ⟨k.val / 300, by omega⟩ rfl)
  match b, hb with
  | ⟨0, _⟩, _ => rfl
  | ⟨1, _⟩, _ => rfl
  | ⟨2, _⟩, hb => exact absurd rfl hb

/-! ## The result at an index -/

/-- What the reference's question branch computes, from the padded input, the weight and the bias. -/
def refQ (xp : (⟨S256x68x300, .f32⟩ : BufTy).Contents (Elt Ideal)) (w : (⟨S1500x512, .f32⟩ : BufTy).Contents (Elt Ideal))
    (b : (⟨S512, .f32⟩ : BufTy).Contents (Elt Ideal)) : (⟨S256x512x64, .f32⟩ : BufTy).Contents (Elt Ideal) :=
  fun i => (∑ k : Fin 1500, w (wA i k) * xp (xA i k)) + b (bA i)

theorem result_eq (x : (⟨S256x64x300, .f32⟩ : BufTy).Contents (Elt Ideal)) (w : (⟨S1500x512, .f32⟩ : BufTy).Contents (Elt Ideal))
    (b : (⟨S512, .f32⟩ : BufTy).Contents (Elt Ideal)) :
    val_main_v11 (F := Ideal) x w b = refQ (val_main_v0 (F := Ideal) x) w b := by
  funext i
  rw [val_main_v11_apply, val_main_v8_apply, val_main_v7_apply, val_main_v10_apply, val_main_v9_apply]
  show (∑ k : Fin 1500, w (lidx_main_v7 (idx_main_v8 i) k) * val_main_v6 (F := Ideal) x (ridx_main_v7 (idx_main_v8 i) k))
      + b (idx_main_v9 (idx_main_v10 i)) = _
  unfold refQ
  have hb : idx_main_v9 (idx_main_v10 i) = bA i := funext fun a => Fin.ext (by match a with | ⟨0, _⟩ => rfl)
  have hw : ∀ k : Fin 1500, lidx_main_v7 (idx_main_v8 i) k = wA i k := fun k => funext fun a => Fin.ext (by
    match a with
    | ⟨0, _⟩ => rfl
    | ⟨1, _⟩ => rfl)
  rw [hb]
  refine congrArg (fun a : EReal => a + _) (Finset.sum_congr rfl fun k _ => ?_)
  rw [hw k, joined_apply x i k]

end Cert.ReferenceIdeal.RefQ

end
-- ==== Proof.RefA.lean ====
/-
  The reference's answer branch, read at an index.

  The reference pads the input `x : [256, 256, 300]` with two zero rows on each side of its middle axis, takes the five
  slices of rows `n .. n + 255` (`n = 0 .. 4`), joins them along the last axis — `z[b, l, k] = xp[b, l + k / 300, k % 300]` —,
  contracts the weight's rows against that axis, moves the feature axis to the middle and adds the bias along it. At the
  exact instance the contraction is a plain sum, so entry `(b, f, l)` of the result is
  `(∑ k, w[k, f] · xp[b, l + k / 300, k % 300]) + bias[f]`, `xp` the padded input.
-/
import proofs.«178013_j53687091200212_1_alg».proof.Proof.Gen.ReferenceIdeal.Read

set_option maxRecDepth 16384

noncomputable section

namespace Cert.ReferenceIdeal.RefA

open Cert.ReferenceIdeal Cert.ReferenceIdeal.Gen Cert.ReferenceIdeal.Read
open Idealize.ShloMosaic Idealize.ShloMosaic.TcCoe Idealize.SL.Sem Idealize.ShloMosaic.StableHlo

/-! ## The indices -/

/-- `(b, l + k / 300, k % 300)` in the padded input. -/
abbrev xA (i : S256x512x256.Idx) (k : Fin 1500) : S256x260x300.Idx := fun a => match a with
  | ⟨0, _⟩ => ⟨(i 0).val, (i 0).isLt⟩
  | ⟨1, _⟩ => ⟨(i 2).val + k.val / 300, by
      have h2 : (i 2).val < 256 := (i 2).isLt; have hk := k.isLt; show _ < 260; omega⟩
  | ⟨2, _⟩ => ⟨k.val % 300, by show _ < 300; omega⟩

/-- `(k, f)` in the weight. -/
abbrev wA (i : S256x512x256.Idx) (k : Fin 1500) : S1500x512.Idx := fun a => match a with
  | ⟨0, _⟩ => ⟨k.val, k.isLt⟩
  | ⟨1, _⟩ => ⟨(i 1).val, (i 1).isLt⟩

/-- `f` in the bias. -/
abbrev bA (i : S256x512x256.Idx) : S512.Idx := fun a => match a with
  | ⟨0, _⟩ => ⟨(i 1).val, (i 1).isLt⟩

/-- `(b, l, k % 300)`: the entry inside the slice `k / 300`. -/
abbrev pcA (i : S256x512x256.Idx) (k : Fin 1500) : S256x256x300.Idx := fun a => match a with
  | ⟨0, _⟩ => ⟨(i 0).val, (i 0).isLt⟩
  | ⟨1, _⟩ => ⟨(i 2).val, (i 2).isLt⟩
  | ⟨2, _⟩ => ⟨k.val % 300, by show _ < 300; omega⟩

/-! ## The joined vector: slot `k` of position `l` is row `l + k / 300` of the padded input at column `k % 300` -/

/-- The five slices, as a family over the shift. -/
def slices (x : (⟨S256x256x300, .f32⟩ : BufTy).Contents (Elt Ideal)) : Fin 5 → (S256x256x300.Idx → Elt Ideal .f32) := fun n => match n with
  | ⟨0, _⟩ => val_main_v13 (F := Ideal) x
  | ⟨1, _⟩ => val_main_v14 (F := Ideal) x
  | ⟨2, _⟩ => val_main_v15 (F := Ideal) x
  | ⟨3, _⟩ => val_main_v16 (F := Ideal) x
  | ⟨4, _⟩ => val_main_v17 (F := Ideal) x

theorem slices_apply (x : (⟨S256x256x300, .f32⟩ : BufTy).Contents (Elt Ideal)) (i : S256x512x256.Idx) (k : Fin 1500) (n : Fin 5)
    (hn : k.val / 300 = n.val) : slices x n (pcA i k) = val_main_v12 (F := Ideal) x (xA i k) := by
  match n, hn with
  | ⟨0, _⟩, hn =>
    have hn' : k.val / 300 = 0 := hn
    refine (val_main_v13_apply x _).trans (congrArg _ (funext fun a => Fin.ext ?_))
    match a with
    | ⟨0, _⟩ => rfl
    | ⟨1, _⟩ => show (i 2).val = (i 2).val + k.val / 300; omega
    | ⟨2, _⟩ => rfl
  | ⟨1, _⟩, hn =>
    have hn' : k.val / 300 = 1 := hn
    refine (val_main_v14_apply x _).trans (congrArg _ (funext fun a => Fin.ext ?_))
    match a with
    | ⟨0, _⟩ => rfl
    | ⟨1, _⟩ => show 1 + (i 2).val = (i 2).val + k.val / 300; omega
    | ⟨2, _⟩ => rfl
  | ⟨2, _⟩, hn =>
    have hn' : k.val / 300 = 2 := hn
    refine (val_main_v15_apply x _).trans (congrArg _ (funext fun a => Fin.ext ?_))
    match a with
    | ⟨0, _⟩ => rfl
    | ⟨1, _⟩ => show 2 + (i 2).val = (i 2).val + k.val / 300; omega
    | ⟨2, _⟩ => rfl
  | ⟨3, _⟩, hn =>
    have hn' : k.val / 300 = 3 := hn
    refine (val_main_v16_apply x _).trans (congrArg _ (funext fun a => Fin.ext ?_))
    match a with
    | ⟨0, _⟩ => rfl
    | ⟨1, _⟩ => show 3 + (i 2).val = (i 2).val + k.val / 300; omega
    | ⟨2, _⟩ => rfl
  | ⟨4, _⟩, hn =>
    have hn' : k.val / 300 = 4 := hn
    refine (val_main_v17_apply x _).trans (congrArg _ (funext fun a => Fin.ext ?_))
    match a with
    | ⟨0, _⟩ => rfl
    | ⟨1, _⟩ => show 4 + (i 2).val = (i 2).val + k.val / 300; omega
    | ⟨2, _⟩ => rfl

/-- The join of the five slices along the last axis, read at `(b, l, k)`. -/
theorem joined_apply (x : (⟨S256x256x300, .f32⟩ : BufTy).Contents (Elt Ideal)) (i : S256x512x256.Idx) (k : Fin 1500) :
    val_main_v18 (F := Ideal) x (ridx_main_v19 (idx_main_v20 i) k) = val_main_v12 (F := Ideal) x (xA i k) := by
  have hk := k.isLt
  unfold val_main_v18
  refine (concatenate_ofFn_apply (t := S256x256x1500) (s₁ := S256x256x300) (2 : Fin 3) (slices x)
    concatenates_S256x256x300_S256x256x300_S256x256x300_S256x256x300_S256x256x300_S256x256x1500_d2 rfl 300 rfl (ridx_main_v19 (idx_main_v20 i) k)
    ⟨k.val / 300, by omega⟩ rfl (pcA i k) rfl (fun b hb => ?_)).trans (slices_apply x i k ⟨k.val / 300, by omega⟩ rfl)
  match b, hb with
  | ⟨0, _⟩, _ => rfl
  | ⟨1, _⟩, _ => rfl
  | ⟨2, _⟩, hb => exact absurd rfl hb

/-! ## The result at an index -/

/-- What the reference's answer branch computes, from the padded input, the weight and the bias. -/
def refA (xp : (⟨S256x260x300, .f32⟩ : BufTy).Contents (Elt Ideal)) (w : (⟨S1500x512, .f32⟩ : BufTy).Contents (Elt Ideal))
    (b : (⟨S512, .f32⟩ : BufTy).Contents (Elt Ideal)) : (⟨S256x512x256, .f32⟩ : BufTy).Contents (Elt Ideal) :=
  fun i => (∑ k : Fin 1500, w (wA i k) * xp (xA i k)) + b (bA i)

theorem result_eq (x : (⟨S256x256x300, .f32⟩ : BufTy).Contents (Elt Ideal)) (w : (⟨S1500x512, .f32⟩ : BufTy).Contents (Elt Ideal))
    (b : (⟨S512, .f32⟩ : BufTy).Contents (Elt Ideal)) :
    val_main_v23 (F := Ideal) x w b = refA (val_main_v12 (F := Ideal) x) w b := by
  funext i
  rw [val_main_v23_apply, val_main_v20_apply, val_main_v19_apply, val_main_v22_apply, val_main_v21_apply]
  show (∑ k : Fin 1500, w (lidx_main_v19 (idx_main_v20 i) k) * val_main_v18 (F := Ideal) x (ridx_main_v19 (idx_main_v20 i) k))
      + b (idx_main_v21 (idx_main_v22 i)) = _
  unfold refA
  have hb : idx_main_v21 (idx_main_v22 i) = bA i := funext fun a => Fin.ext (by match a with | ⟨0, _⟩ => rfl)
  have hw : ∀ k : Fin 1500, lidx_main_v19 (idx_main_v20 i) k = wA i k := fun k => funext fun a => Fin.ext (by
    match a with
    | ⟨0, _⟩ => rfl
    | ⟨1, _⟩ => rfl)
  rw [hb]
  refine congrArg (fun a : EReal => a + _) (Finset.sum_congr rfl fun k _ => ?_)
  rw [hw k, joined_apply x i k]

end Cert.ReferenceIdeal.RefA

end
-- ==== Proof.Bridge.lean ====
/-
  The kernel's two results and the reference's are the same functions of the arguments.

  Both sides pad the input the same way, and at the exact instance narrowing a float is the identity, so the padded
  arrays agree entry by entry; the bias read as a row at `(0, f)` is the bias at `f`; and the kernel's products
  `xp[b, l + k / 300, k % 300] · w[k, f]` are the reference's `w[k, f] · xp[b, l + k / 300, k % 300]` with the two
  factors in the other order, term by term under the same sum over the 1500 context slots.
-/
import proofs.«178013_j53687091200212_1_alg».proof.Proof.HostSide
import proofs.«178013_j53687091200212_1_alg».proof.Proof.RegionA
import proofs.«178013_j53687091200212_1_alg».proof.Proof.RefQ
import proofs.«178013_j53687091200212_1_alg».proof.Proof.RefA

set_option maxRecDepth 16384

noncomputable section

namespace Cert.Bridge

open Idealize.ShloMosaic Idealize.ShloMosaic.TcCoe Idealize.SL.Sem
open Cert.KernelIdeal.HostSide

/-- The bias row at `(0, f)` is the bias at `f`. -/
theorem biasRow_apply (b : Vec Ideal Cert.KernelIdeal.S512 .f32) (j : Cert.KernelIdeal.S1x512.Idx) (f : Cert.KernelIdeal.S512.Idx)
    (h0 : (j 0).val = 0) (h1 : (j 1).val = (f 0).val) : biasRow b j = b f :=
  shapeCast_apply b Cert.KernelIdeal.Facts₀.shapeCasts_S512_S1x512 j f (by
    rw [Shape.rowMajor_val_one, Shape.rowMajor_val_two]
    show (f 0).val = (j 0).val * 512 + (j 1).val
    omega)

/-- The question branch. -/
theorem bridgeQ (x : Vec Ideal Cert.KernelIdeal.S256x64x300 .f32) (w : Vec Ideal Cert.KernelIdeal.S1500x512 .f32)
    (b : Vec Ideal Cert.KernelIdeal.S512 .f32) :
    Cert.KernelIdeal.RegionQ.outQ (prepQ x) (narrowW w) (biasRow b)
      = Cert.ReferenceIdeal.RefQ.refQ (Cert.ReferenceIdeal.Read.val_main_v0 (F := Ideal) x) w b := by
  funext i
  unfold Cert.KernelIdeal.RegionQ.outQ Cert.ReferenceIdeal.RefQ.refQ
  have hb : biasRow b (Cert.KernelIdeal.RegionQ.bA i) = b (Cert.ReferenceIdeal.RefQ.bA i) := biasRow_apply b _ _ rfl rfl
  rw [hb]
  refine congrArg (fun a : EReal => a + _) (Finset.sum_congr rfl fun k _ => ?_)
  have ex : Cert.KernelIdeal.RegionQ.xA i k = Cert.ReferenceIdeal.RefQ.xA i k := funext fun a => by
    match a with
    | ⟨0, _⟩ => rfl
    | ⟨1, _⟩ => rfl
    | ⟨2, _⟩ => rfl
  have ew : Cert.KernelIdeal.RegionQ.wA i k = Cert.ReferenceIdeal.RefQ.wA i k := funext fun a => by
    match a with
    | ⟨0, _⟩ => rfl
    | ⟨1, _⟩ => rfl
  have hx : prepQ x (Cert.KernelIdeal.RegionQ.xA i k) = Cert.ReferenceIdeal.Read.val_main_v0 (F := Ideal) x (Cert.ReferenceIdeal.RefQ.xA i k) := by
    rw [ex]; rfl
  have hw : narrowW w (Cert.KernelIdeal.RegionQ.wA i k) = w (Cert.ReferenceIdeal.RefQ.wA i k) := by
    rw [ew]; rfl
  rw [hx, hw]
  exact mul_comm _ _

/-- The answer branch. -/
theorem bridgeA (x : Vec Ideal Cert.KernelIdeal.S256x256x300 .f32) (w : Vec Ideal Cert.KernelIdeal.S1500x512 .f32)
    (b : Vec Ideal Cert.KernelIdeal.S512 .f32) :
    Cert.KernelIdeal.RegionA.outA (prepA x) (narrowW w) (biasRow b)
      = Cert.ReferenceIdeal.RefA.refA (Cert.ReferenceIdeal.Read.val_main_v12 (F := Ideal) x) w b := by
  funext i
  unfold Cert.KernelIdeal.RegionA.outA Cert.ReferenceIdeal.RefA.refA
  have hb : biasRow b (Cert.KernelIdeal.RegionA.bA i) = b (Cert.ReferenceIdeal.RefA.bA i) := biasRow_apply b _ _ rfl rfl
  rw [hb]
  refine congrArg (fun a : EReal => a + _) (Finset.sum_congr rfl fun k _ => ?_)
  have ex : Cert.KernelIdeal.RegionA.xA i k = Cert.ReferenceIdeal.RefA.xA i k := funext fun a => by
    match a with
    | ⟨0, _⟩ => rfl
    | ⟨1, _⟩ => rfl
    | ⟨2, _⟩ => rfl
  have ew : Cert.KernelIdeal.RegionA.wA i k = Cert.ReferenceIdeal.RefA.wA i k := funext fun a => by
    match a with
    | ⟨0, _⟩ => rfl
    | ⟨1, _⟩ => rfl
  have hx : prepA x (Cert.KernelIdeal.RegionA.xA i k) = Cert.ReferenceIdeal.Read.val_main_v12 (F := Ideal) x (Cert.ReferenceIdeal.RefA.xA i k) := by
    rw [ex]; rfl
  have hw : narrowW w (Cert.KernelIdeal.RegionA.wA i k) = w (Cert.ReferenceIdeal.RefA.wA i k) := by
    rw [ew]; rfl
  rw [hx, hw]
  exact mul_comm _ _

end Cert.Bridge

end
-- ==== Proof.lean ====
/-
  The certificate of a context-window convolution written as one matrix product per branch.

  For each of the two inputs (a question of 64 positions, an answer of 256), the input is padded with two zero rows on
  each side of its position axis, every position `l` gathers the five rows `l .. l + 4` of the padded input side by side
  into a vector of 1500 slots, `z[b, l, k] = xp[b, l + k / 300, k % 300]`, and the result is
  `out[b, f, l] = (∑ k, z[b, l, k] · w[k, f]) + bias[f]`.
  The kernel computes it in two pipelined regions, one per input, each grid point on a run of batch rows: the body joins
  five row-shifted loads of the padded block, multiplies by the whole weight into a zero accumulator, adds the bias row
  and swaps the last two axes; the reference joins five slices of the padded array, contracts the weight against them and
  moves the feature axis. Over the extended reals a float's narrowing is the identity and both products are the plain sum
  over `k`, so the two results agree entry by entry, the factors of each term in the other order (multiplication of
  extended reals commutes; no finiteness is used).
  The frames of the two kernel programs are the generated ones; the reference's frame is its run with the results
  dropped; the idealization rewrote no operation.
-/
import proofs.«178013_j53687091200212_1_alg».proof.Defs
import proofs.«178013_j53687091200212_1_alg».proof.Proof.Gen.Kernel
import proofs.«178013_j53687091200212_1_alg».proof.Proof.Gen.Kernel.Skeleton
import proofs.«178013_j53687091200212_1_alg».proof.Proof.Gen.Kernel.Launch
import proofs.«178013_j53687091200212_1_alg».proof.Proof.Gen.Kernel.Points
import proofs.«178013_j53687091200212_1_alg».proof.Proof.Gen.Kernel.Frame
import proofs.«178013_j53687091200212_1_alg».proof.Proof.Gen.KernelIdeal
import proofs.«178013_j53687091200212_1_alg».proof.Proof.Gen.KernelIdeal.Skeleton
import proofs.«178013_j53687091200212_1_alg».proof.Proof.Gen.KernelIdeal.Launch
import proofs.«178013_j53687091200212_1_alg».proof.Proof.Gen.KernelIdeal.Points
import proofs.«178013_j53687091200212_1_alg».proof.Proof.Gen.KernelIdeal.Frame
import proofs.«178013_j53687091200212_1_alg».proof.Proof.Gen.ReferenceIdeal
import proofs.«178013_j53687091200212_1_alg».proof.Proof.Gen.Pre_finite_inputs
import proofs.«178013_j53687091200212_1_alg».proof.Proof.Gen.ReferenceIdeal.Run
import proofs.«178013_j53687091200212_1_alg».proof.Proof.Gen.ReferenceIdeal.Read
import proofs.«178013_j53687091200212_1_alg».proof.Proof.KernelValue
import proofs.«178013_j53687091200212_1_alg».proof.Proof.Bridge
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run, the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both programs, from memories agreeing on the four arguments, end with the same two results: the kernel's are the two
    regions' functions of the prepared arguments, the reference's the two sums, and these are the same functions. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KernelValue.resultQ m c, fun c => Cert.KernelIdeal.KernelValue.resultA m c,
    Cert.KernelIdeal.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v11_eq, Cert.ReferenceIdeal.RefQ.result_eq, (hagree c).1, (hagree c).2.2.1, (hagree c).2.2.2]
    exact (Cert.Bridge.bridgeQ _ _ _).symm
  · rw [Cert.ReferenceIdeal.Read.val_main_v23_eq, Cert.ReferenceIdeal.RefA.result_eq, (hagree c).2.1, (hagree c).2.2.1, (hagree c).2.2.2]
    exact (Cert.Bridge.bridgeA _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
